-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v28 : IVec S_ 1) (main_v32 : IVec S1600000 1) (main_v34 : IVec S1600000 32) : IVec S_ 1 :=
  let main_c_11 : IVec S_ 32 := constantI S_ 32 100000#32
  let main_v35 : IVec S1600000 32 := broadcastInDim S1600000 ![] bcast_S_S1600000 main_c_11
  let main_v36 : IVec S1600000 1 := cmpi .slt main_v34 main_v35
  let main_v37 : IVec S1600000 1 := andi main_v32 main_v36
  let main_c_12 : IVec S_ 1 := constantI S_ 1 1#1
  let main_v38 : IVec S_ 1 := (fun x v => Host.reduce IntOp.andi x v reducesTo_S1600000_S_d0 h_S_) main_v37 main_c_12
  let main_v39 : IVec S_ 1 := andi main_v28 main_v38
  main_v39

def fn_part1 {F : FTy → Type} [FloatOps F] (main_arg1 : IVec S2x1600000 32) (main_arg5 : FVec F S128x128 .f32) (main_arg6 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : IVec S1x1600000 32 := (extractStridedSlice S1x1600000 ![0, 0] · slices_S2x1600000_S1x1600000_0_0) main_arg1
  let main_v30 : IVec S1600000 32 := shapeCast S1600000 main_v29 shapeCasts_S1x1600000_S1600000
  let main_c_10 : IVec S_ 32 := constantI S_ 32 0#32
  let main_v31 : IVec S1600000 32 := broadcastInDim S1600000 ![] bcast_S_S1600000 main_c_10
  let main_v32 : IVec S1600000 1 := cmpi .sge main_v30 main_v31
  let main_v33 : IVec S1x1600000 32 := (extractStridedSlice S1x1600000 ![0, 0] · slices_S2x1600000_S1x1600000_0_0) main_arg1
  let main_v34 : IVec S1600000 32 := shapeCast S1600000 main_v33 shapeCasts_S1x1600000_S1600000
  fn_part2 (F := F) main_v28 main_v32 main_v34

def fn {F : FTy → Type} [FloatOps F] (main_arg0 : FVec F S100000x128 .f32) (main_arg1 : IVec S2x1600000 32) (main_arg2 : FVec F S1600000x128 .f32) (main_arg3 : FVec F S128x128 .f32) (main_arg4 : FVec F S128 .f32) (main_arg5 : FVec F S128x128 .f32) (main_arg6 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 54
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1, .i32⟩
  | .hbm, ⟨20, _⟩ => ⟨S_, .i32⟩
  | .hbm, ⟨21, _⟩ => ⟨S1600000x1, .i32⟩
  | .hbm, ⟨22, _⟩ => ⟨S1600000x1, .i1⟩
  | .hbm, ⟨23, _⟩ => ⟨S1x1, .i32⟩
  | .hbm, ⟨24, _⟩ => ⟨S1600000x1, .i32⟩
  | .hbm, ⟨25, _⟩ => ⟨S1600000x1, .i1⟩
  | .hbm, ⟨26, _⟩ => ⟨S1600000x1, .i1⟩
  | .hbm, ⟨27, _⟩ => ⟨S_, .i1⟩
  | .hbm, ⟨28, _⟩ => ⟨S1600000, .i1⟩
  | .hbm, ⟨29, _⟩ => ⟨S1600000x128, .f32⟩
  | .hbm, ⟨30, _⟩ => ⟨S1600000x128, .i1⟩
  | .hbm, ⟨31, _⟩ => ⟨S_, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S_, .f32⟩
  | .hbm, ⟨43, _⟩ => ⟨S1600000, .f32⟩
  | .hbm, ⟨44, _⟩ => ⟨S_, .f32⟩
  | .hbm, ⟨45, _⟩ => ⟨S100000, .f32⟩
  | .hbm, ⟨46, _⟩ => ⟨S1600000x1, .i32⟩
  | .hbm, ⟨47, _⟩ => ⟨S100000, .f32⟩
  | .hbm, ⟨48, _⟩ => ⟨S100000x1, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S1x128, .f32⟩
  | .hbm, ⟨53, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x1, .f32⟩
  | .local _ .vmem, ⟨7, _⟩ => ⟨S4000x1, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_cst_2 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S128x128, .f32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S128x128, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.LibHostRead.lean ====
/-
  A straight line of host operations in which no buffer is rewritten, read at a buffer.

  A line of StableHLO operations over a device's buffers is run as a fold: each operation rewrites the buffers it writes
  and leaves the rest. When every operation writes a buffer that no later operation writes and that no earlier operation
  reads or writes (static single assignment, in program order), the contents of an operation's result buffer AFTER THE
  WHOLE LINE are the operation's function of the contents, after the whole line, of its operand buffers: nothing after
  the operation touches its result or its operands. That order is a decidable property of a literal line; with it the
  fold is never opened again.
-/
import Idealize.ShloMosaic.Lib.StableHlo.Run
import Idealize.ShloMosaic.Lib.Pipeline.Frame

noncomputable section

namespace Cert.HostRead

open Idealize.ShloMosaic Idealize.ShloMosaic.StableHlo

variable {τ : Topo} {sig : RefSig} {Val : EltTy → Type}

/-- No operation writes a buffer an EARLIER operation of the line reads or writes. -/
def Fresh (L : List (HloOp τ sig Val)) : Prop := L.Pairwise fun o₁ o₂ => Disjoint o₂.writes o₁.bufs

instance (L : List (HloOp τ sig Val)) : Decidable (Fresh L) := inferInstanceAs (Decidable (L.Pairwise _))

/-- A buffer of operation number `p` holds, after the whole line, what it held right after that operation. -/
theorem after_at {L : List (HloOp τ sig Val)} (hL : Fresh L) (p : Nat) (hp : p < L.length) (V : Valuation τ sig Val)
    {b : DevRef τ sig} (hb : b ∈ L[p].bufs) : after L V b = L[p].result (after (L.take p) V) b := by
  have hsplit : L.take p ++ L[p] :: L.drop (p + 1) = L := by
    rw [← List.drop_eq_getElem_cons hp, List.take_append_drop]
  have hP : (L.take p ++ L[p] :: L.drop (p + 1)).Pairwise fun o₁ o₂ => Disjoint o₂.writes o₁.bufs := by
    rw [hsplit]; exact hL
  have hd : ∀ o ∈ L.drop (p + 1), Disjoint o.writes L[p].bufs :=
    (List.pairwise_cons.mp (List.pairwise_append.mp hP).2.1).1
  calc after L V b = after (L.take p ++ L[p] :: L.drop (p + 1)) V b := by rw [hsplit]
    _ = L[p].result (after (L.take p) V) b := by
      rw [after_append, after_cons]
      exact after_of_forall_not_mem _ _ fun o ho hw => Finset.disjoint_left.mp (hd o ho) hw hb

variable {L : List (HloOp τ sig Val)} (hL : Fresh L) (p : Nat) {V : Valuation τ sig Val}
include hL

/- In each lemma the operation is named by its number `p` in the line and `hop` says which builder it is (`rfl` on a
   literal line); the builder's own side proofs (its buffers are on the device and unscoped), the bound on `p` and the
   operands' being other buffers than the result are found by computation. -/

/-- A constant. -/
theorem read_nullary {y : Ref sig .tc} {v : y.ty.Contents Val}
    (hy : y.space ≠ .host ∧ (Proc.devRef (τ := τ) .tc y).isScoped = false := by exact ⟨by decide, rfl⟩)
    (hp : p < L.length := by decide) (hop : L[p] = nullary y v hy) :
    after L V (Proc.devRef .tc y) = v := by
  have hy' : Proc.devRef .tc y ∈ L[p].bufs := by rw [hop, nullary_bufs]; exact Finset.mem_singleton_self _
  rw [after_at hL p hp V hy', hop, nullary_result]

/-- An operation of one operand. -/
theorem read_unary {x y : Ref sig .tc} {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = unary x y f hx hy) (hxy : x ≠ y := by decide) :
    after L V (Proc.devRef .tc y) = f (after L V (Proc.devRef .tc x)) := by
  have hy' : Proc.devRef .tc y ∈ L[p].bufs := by
    rw [hop, unary_bufs]; exact Finset.mem_insert_of_mem (Finset.mem_singleton_self _)
  have hx' : Proc.devRef .tc x ∈ L[p].bufs := by rw [hop, unary_bufs]; exact Finset.mem_insert_self _ _
  rw [after_at hL p hp V hy', after_at hL p hp V hx', hop, unary_result, unary_result_ne _ _ _ _ _ _ hxy]

/-- A reshape. -/
theorem read_reshape {x y : Ref sig .tc} (he : x.ty.elt = y.ty.elt := by rfl)
    (hn : x.ty.shape.ShapeCasts y.ty.shape := by decide)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = reshape x y he hn hx hy) (hxy : x ≠ y := by decide) :
    after L V (Proc.devRef .tc y) = fun i => he ▸ shapeCast y.ty.shape (after L V (Proc.devRef .tc x)) hn i := by
  have hy' : Proc.devRef .tc y ∈ L[p].bufs := by
    rw [hop, reshape_bufs]; exact Finset.mem_insert_of_mem (Finset.mem_singleton_self _)
  have hx' : Proc.devRef .tc x ∈ L[p].bufs := by rw [hop, reshape_bufs]; exact Finset.mem_insert_self _ _
  rw [after_at hL p hp V hy', after_at hL p hp V hx', hop, reshape_result, reshape_result_ne _ _ _ _ _ _ _ hxy]

/-- An operation of two operands. -/
theorem read_binary {a b y : Ref sig .tc} {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = binary a b y f ha hb hy)
    (hay : a ≠ y := by decide) (hby : b ≠ y := by decide) :
    after L V (Proc.devRef .tc y) = f (after L V (Proc.devRef .tc a)) (after L V (Proc.devRef .tc b)) := by
  have hy' : Proc.devRef .tc y ∈ L[p].bufs := by
    rw [hop, binary_bufs]; exact Finset.mem_insert_of_mem (Finset.mem_insert_of_mem (Finset.mem_singleton_self _))
  have ha' : Proc.devRef .tc a ∈ L[p].bufs := by rw [hop, binary_bufs]; exact Finset.mem_insert_self _ _
  have hb' : Proc.devRef .tc b ∈ L[p].bufs := by
    rw [hop, binary_bufs]; exact Finset.mem_insert_of_mem (Finset.mem_insert_self _ _)
  rw [after_at hL p hp V hy', after_at hL p hp V ha', after_at hL p hp V hb', hop, binary_result,
    binary_result_ne _ _ _ _ _ _ _ _ hay, binary_result_ne _ _ _ _ _ _ _ _ hby]

/-- An operation of three operands. -/
theorem read_ternary {c a b y : Ref sig .tc}
    {f : c.ty.Contents Val → a.ty.Contents Val → b.ty.Contents Val → y.ty.Contents Val}
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = ternary c a b y f hc ha hb hy)
    (hcy : c ≠ y := by decide) (hay : a ≠ y := by decide) (hby : b ≠ y := by decide) :
    after L V (Proc.devRef .tc y)
      = f (after L V (Proc.devRef .tc c)) (after L V (Proc.devRef .tc a)) (after L V (Proc.devRef .tc b)) := by
  have hy' : Proc.devRef .tc y ∈ L[p].bufs := by
    rw [hop, ternary_bufs]
    exact Finset.mem_insert_of_mem (Finset.mem_insert_of_mem (Finset.mem_insert_of_mem (Finset.mem_singleton_self _)))
  have hc' : Proc.devRef .tc c ∈ L[p].bufs := by rw [hop, ternary_bufs]; exact Finset.mem_insert_self _ _
  have ha' : Proc.devRef .tc a ∈ L[p].bufs := by
    rw [hop, ternary_bufs]; exact Finset.mem_insert_of_mem (Finset.mem_insert_self _ _)
  have hb' : Proc.devRef .tc b ∈ L[p].bufs := by
    rw [hop, ternary_bufs]; exact Finset.mem_insert_of_mem (Finset.mem_insert_of_mem (Finset.mem_insert_self _ _))
  rw [after_at hL p hp V hy', after_at hL p hp V hc', after_at hL p hp V ha', after_at hL p hp V hb', hop, ternary_result,
    ternary_result_ne _ _ _ _ _ _ _ _ _ _ hcy, ternary_result_ne _ _ _ _ _ _ _ _ _ _ hay, ternary_result_ne _ _ _ _ _ _ _ _ _ _ hby]

/-- An operation of a family of operands (a concatenation). -/
theorem read_nary {n : Nat} {xs : Fin n → Ref sig .tc} {y : Ref sig .tc}
    {f : ((k : Fin n) → (xs k).ty.Contents Val) → y.ty.Contents Val}
    (hxs : ∀ k, (xs k).space ≠ .host ∧ (Proc.devRef (τ := τ) .tc (xs k)).isScoped = false := by decide)
    (hy : y.space ≠ .host ∧ (Proc.devRef (τ := τ) .tc y).isScoped = false := by exact ⟨by decide, rfl⟩)
    (hp : p < L.length := by decide) (hop : L[p] = nary xs y f hxs hy) (hne : ∀ k, xs k ≠ y := by decide) :
    after L V (Proc.devRef .tc y) = f (fun k => after L V (Proc.devRef .tc (xs k))) := by
  have hb : (nary (τ := τ) xs y f hxs hy).bufs
      = insert (Proc.devRef .tc y) (Finset.univ.image fun k => Proc.devRef (τ := τ) .tc (xs k)) := rfl
  have hy' : Proc.devRef .tc y ∈ L[p].bufs := by rw [hop, hb]; exact Finset.mem_insert_self _ _
  have hx' : ∀ k, Proc.devRef .tc (xs k) ∈ L[p].bufs := fun k => by
    rw [hop, hb]; exact Finset.mem_insert_of_mem (Finset.mem_image_of_mem _ (Finset.mem_univ k))
  rw [after_at hL p hp V hy', hop, nary_result]
  congr 1
  funext k
  rw [after_at hL p hp V (hx' k), hop, nary_result_ne _ _ _ _ _ _ (hne k)]

end Cert.HostRead

end
-- ==== Proof.LibHostRank.lean ====
/-
  Freshness of a straight line of host operations from a ranking of its buffers.

  A line is fresh when no operation writes a buffer that an earlier operation reads or writes. Checked pair by pair that
  is quadratic in the length of the line. When the buffers carry a rank — their index in the buffer table, say — such
  that operation number p writes only buffers of rank n + p and touches only buffers of rank at most n + p, the line is
  fresh: a later operation's results have a larger rank than anything an earlier one touches. That condition is linear
  in the length of the line, and it splits along a concatenation.
-/
import proofs.«409598_j61134564491909_3_alg».proof.Proof.LibHostRead

noncomputable section

namespace Cert.HostRead

open Idealize.ShloMosaic Idealize.ShloMosaic.StableHlo

variable {τ : Topo} {sig : RefSig} {Val : EltTy → Type}

/-- From rank n on, each operation writes only buffers of the next rank and touches only buffers up to it. -/
def Ranked (rk : DevRef τ sig → Nat) : Nat → List (HloOp τ sig Val) → Prop
  | _, [] => True
  | n, o :: l => (∀ b ∈ o.writes, rk b = n) ∧ (∀ b ∈ o.bufs, rk b ≤ n) ∧ Ranked rk (n + 1) l

instance decRanked (rk : DevRef τ sig → Nat) : ∀ (n : Nat) (L : List (HloOp τ sig Val)), Decidable (Ranked rk n L)
  | _, [] => isTrue trivial
  | n, o :: l =>
    have := decRanked rk (n + 1) l
    inferInstanceAs (Decidable ((∀ b ∈ o.writes, rk b = n) ∧ (∀ b ∈ o.bufs, rk b ≤ n) ∧ Ranked rk (n + 1) l))

/-- A ranked line followed by a line ranked from where the first ends is ranked. -/
theorem Ranked.append (rk : DevRef τ sig → Nat) : ∀ (n : Nat) (L₁ L₂ : List (HloOp τ sig Val)),
    Ranked rk n L₁ → Ranked rk (n + L₁.length) L₂ → Ranked rk n (L₁ ++ L₂)
  | n, [], L₂, _, h₂ => by simpa using h₂
  | n, o :: l, L₂, h₁, h₂ => by
    refine ⟨h₁.1, h₁.2.1, Ranked.append rk (n + 1) l L₂ h₁.2.2 ?_⟩
    have e : n + 1 + l.length = n + (o :: l).length := by simp [List.length_cons]; omega
    rw [e]; exact h₂

/-- In a line ranked from n every operation writes only buffers of rank at least n. -/
theorem Ranked.le_of_mem_writes (rk : DevRef τ sig → Nat) : ∀ (n : Nat) (L : List (HloOp τ sig Val)), Ranked rk n L →
    ∀ o ∈ L, ∀ b ∈ o.writes, n ≤ rk b
  | _, [], _, o, ho, _, _ => absurd ho List.not_mem_nil
  | n, o' :: l, h, o, ho, b, hb => by
    rcases List.mem_cons.mp ho with rfl | ho
    · exact (h.1 b hb).ge
    · exact Nat.le_of_succ_le (Ranked.le_of_mem_writes rk (n + 1) l h.2.2 o ho b hb)

/-- A buffer ranked below a line's first rank is written by no operation of the line: it keeps its contents. -/
theorem Ranked.after_of_lt (rk : DevRef τ sig → Nat) (n : Nat) (L : List (HloOp τ sig Val)) (h : Ranked rk n L)
    (V : Valuation τ sig Val) (b : DevRef τ sig) (hb : rk b < n) : after L V b = V b :=
  after_of_forall_not_mem _ _ fun o ho hw => by
    have := Ranked.le_of_mem_writes rk n L h o ho b hw
    omega

/-- A ranked line is fresh. -/
theorem Ranked.fresh (rk : DevRef τ sig → Nat) : ∀ (n : Nat) (L : List (HloOp τ sig Val)), Ranked rk n L → Fresh L
  | _, [], _ => List.Pairwise.nil
  | n, o :: l, h => by
    refine List.Pairwise.cons (fun o' ho' => ?_) (Ranked.fresh rk (n + 1) l h.2.2)
    refine Finset.disjoint_left.mpr fun b hw hb => ?_
    have h1 : n + 1 ≤ rk b := Ranked.le_of_mem_writes rk (n + 1) l h.2.2 o' ho' b hw
    have h2 : rk b ≤ n := h.2.1 b hb
    omega

end Cert.HostRead

end
-- ==== Proof.KerHost.lean ====
/-
  The arrays the kernel's one launch finds, as functions of the program's arguments.

  Before the launch the host takes row 0 (sources) and row 1 (targets) of the ends array; a negative source counts from
  the end; a source row is taken from the node features where the source names a node and is a fill value elsewhere; the
  taken rows, the edge features and a vector of ones are each added up by target; the three weight matrices are
  transposed and the bias becomes a row. The host line writes every buffer once, in the order of the buffer table, so
  each buffer after the whole line is its operation's function of its operands after the whole line.
-/
import proofs.«409598_j61134564491909_3_alg».proof.Proof.Gen.KernelIdeal.Frame
import proofs.«409598_j61134564491909_3_alg».proof.Proof.LibHostRank
import Idealize.ShloMosaic.Lib.StableHlo.Run
import Idealize.ShloMosaic.PureOps.Ideal

set_option maxRecDepth 16384

noncomputable section

namespace Cert.KerHost

open Cert.KernelIdeal Idealize.ShloMosaic Idealize.ShloMosaic.TcCoe Idealize.SL.Sem

section Terms

open Cert.KernelIdeal.Facts₀

/-- The targets of the edges, as a vector of words. -/
def dstVec (ei : IVec S2x1600000 32) : IVec S1600000 32 :=
  shapeCast S1600000 (extractStridedSlice S1x1600000 ![1, 0] ei slices_S2x1600000_S1x1600000_1_0) shapeCasts_S1x1600000_S1600000

/-- The targets of the edges, as a column of words. -/
def dstCol (ei : IVec S2x1600000 32) : IVec S1600000x1 32 :=
  broadcastInDim S1600000x1 ![0] bcast_S1600000_S1600000x1_0 (dstVec ei)

/-- The sources of the edges, as a vector of words. -/
def srcVec (ei : IVec S2x1600000 32) : IVec S1600000 32 :=
  shapeCast S1600000 (extractStridedSlice S1x1600000 ![0, 0] ei slices_S2x1600000_S1x1600000_0_0) shapeCasts_S1x1600000_S1600000

/-- The sources with a negative word counted from the end. -/
def wrapped (ei : IVec S2x1600000 32) : IVec S1600000 32 :=
  select (cmpi .slt (srcVec ei) (broadcastInDim S1600000 ![] bcast_S_S1600000 (constantI S_ 32 0#32)))
    (addi (srcVec ei) (broadcastInDim S1600000 ![] bcast_S_S1600000 (constantI S_ 32 100000#32))) (srcVec ei)

/-- The wrapped sources as a column. -/
def srcCol (ei : IVec S2x1600000 32) : IVec S1600000x1 32 :=
  broadcastInDim S1600000x1 ![0] bcast_S1600000_S1600000x1_0 (wrapped ei)

/-- Whether the wrapped source of an edge names a node. -/
def named (ei : IVec S2x1600000 32) : IVec S1600000 1 :=
  Host.reduce IntOp.andi
    (andi (cmpi .sge (srcCol ei) (broadcastInDim S1600000x1 ![] bcast_S_S1600000x1 (constantI S_ 32 0#32)))
      (cmpi .sle (srcCol ei) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The source rows of the edges: a row of the node features, or the fill value. -/
def taken (x : FVec Ideal S100000x128 .f32) (ei : IVec S2x1600000 32) : FVec Ideal S1600000x128 .f32 :=
  select (broadcastInDim S1600000x128 ![0] bcast_S1600000_S1600000x128_0 (named ei))
    (Host.gather gather_S100000x128_S1600000x1_S1600000x128_1_0_n_n_0_1_1128 x (srcCol ei))
    (broadcastInDim S1600000x128 ![] bcast_S_S1600000x128 (constant (F := Ideal) S_ .f32 0x7FC00000#32))

/-- The all-zero node array the sums start from. -/
def zeros : FVec Ideal S100000x128 .f32 :=
  broadcastInDim S100000x128 ![] bcast_S_S100000x128 (constant (F := Ideal) S_ .f32 0x00000000#32)

/-- The source rows added up by target. -/
def sumSrc (x : FVec Ideal S100000x128 .f32) (ei : IVec S2x1600000 32) : FVec Ideal S100000x128 .f32 :=
  Host.scatterAdd (F := Ideal) scatter_S100000x128_S1600000x1_S1600000x128_1_0_0_1 zeros (dstCol ei) (taken x ei)

/-- The edge features added up by target. -/
def sumEdge (ei : IVec S2x1600000 32) (ea : FVec Ideal S1600000x128 .f32) : FVec Ideal S100000x128 .f32 :=
  Host.scatterAdd (F := Ideal) scatter_S100000x128_S1600000x1_S1600000x128_1_0_0_1 zeros (dstCol ei) ea

/-- The number of edges into each node, as a column. -/
def degCol (ei : IVec S2x1600000 32) : FVec Ideal S100000x1 .f32 :=
  shapeCast S100000x1 (Host.scatterAdd (F := Ideal) scatter_S100000_S1600000x1_S1600000_n_0_0_1
    (broadcastInDim S100000 ![] bcast_S_S100000 (constant (F := Ideal) S_ .f32 0x00000000#32)) (dstCol ei)
    (broadcastInDim S1600000 ![] bcast_S_S1600000 (constant (F := Ideal) S_ .f32 0x3F800000#32))) shapeCasts_S100000_S100000x1

/-- A square matrix transposed. -/
def flip (w : FVec Ideal S128x128 .f32) : FVec Ideal S128x128 .f32 :=
  transpose S128x128 [1, 0] w transposes_S128x128_S128x128_1_0

/-- The bias as a row. -/
def biasRow (b : FVec Ideal S128 .f32) : FVec Ideal S1x128 .f32 := shapeCast S1x128 b shapeCasts_S128_S1x128

end Terms

open Cert.KernelIdeal.Gen Cert.HostRead

/-- The host line before the launch. -/
abbrev line : List (HloOp τ sig (Elt Ideal)) := List.flatten [hostOps0, hostOps0_1, hostOps0_2]

/-- A buffer's place in the buffer table. -/
abbrev place : DevRef τ sig → Nat := fun b => b.idx.val

theorem ranked0 : Ranked place 7 (hostOps0 (F := Ideal)) := by decide
theorem ranked1 : Ranked place 11 (hostOps0_1 (F := Ideal)) := by decide
theorem ranked2 : Ranked place 34 (hostOps0_2 (F := Ideal)) := by decide

theorem ranked : Ranked place 7 line := by
  show Ranked place 7 (hostOps0 ++ (hostOps0_1 ++ (hostOps0_2 ++ [])))
  rw [List.append_nil]
  exact Ranked.append place 7 _ _ ranked0 (Ranked.append place 11 _ _ ranked1 ranked2)

theorem fresh : Fresh line := Ranked.fresh place 7 line ranked

variable (m : (ℓ : Loc nD τ sig) → Buf (Elt Ideal) ℓ) (c : Dev nD)

/-- The ends array, the node features, the edge features as the program was given them. -/
abbrev endsOf : IVec S2x1600000 32 := m ((c : Thread nD τ).loc main_arg1)
abbrev nodesOf : FVec Ideal S100000x128 .f32 := m ((c : Thread nD τ).loc main_arg0)
abbrev edgesOf : FVec Ideal S1600000x128 .f32 := m ((c : Thread nD τ).loc main_arg2)

theorem held_arg0 : StableHlo.after line (fun b' => m (c, b')) (Proc.devRef .tc main_arg0) = nodesOf m c := V_main_arg0 m c
theorem held_arg1 : StableHlo.after line (fun b' => m (c, b')) (Proc.devRef .tc main_arg1) = endsOf m c := V_main_arg1 m c
theorem held_arg2 : StableHlo.after line (fun b' => m (c, b')) (Proc.devRef .tc main_arg2) = edgesOf m c := V_main_arg2 m c

/-! The host line, buffer by buffer. -/

theorem h_v1 : (V m c main_v1 : IVec S1600000 32) = srcVec (endsOf m c) := by
  refine (read_reshape fresh 1 (x := main_v0) (y := main_v1) (hop := rfl)).trans ?_
  rw [read_unary fresh 0 (x := main_arg1) (y := main_v0)
    (f := fun u => extractStridedSlice S1x1600000 ![0, 0] u Facts₀.slices_S2x1600000_S1x1600000_0_0) (hop := rfl), held_arg1]
  rfl

theorem h_v3 : (V m c main_v3 : IVec S1600000 32) = dstVec (endsOf m c) := by
  refine (read_reshape fresh 3 (x := main_v2) (y := main_v3) (hop := rfl)).trans ?_
  rw [read_unary fresh 2 (x := main_arg1) (y := main_v2)
    (f := fun u => extractStridedSlice S1x1600000 ![1, 0] u Facts₀.slices_S2x1600000_S1x1600000_1_0) (hop := rfl), held_arg1]
  rfl

theorem h_wrapped : (V m c main_call0_v4 : IVec S1600000 32) = wrapped (endsOf m c) := by
  refine (read_ternary fresh 10 (c := main_call0_v1) (a := main_call0_v3) (b := main_v1) (y := main_call0_v4)
    (f := fun w u v => select w u v) (hop := rfl)).trans ?_
  rw [read_binary fresh 6 (a := main_v1) (b := main_call0_v0) (y := main_call0_v1) (f := fun u v => cmpi .slt u v) (hop := rfl),
    read_unary fresh 5 (x := main_call0_c) (y := main_call0_v0)
      (f := fun u => broadcastInDim S1600000 ![] Facts₀.bcast_S_S1600000 u) (hop := rfl),
    read_nullary fresh 4 (y := main_call0_c) (v := constantI S_ 32 0#32) (hop := rfl),
    read_binary fresh 9 (a := main_v1) (b := main_call0_v2) (y := main_call0_v3) (f := fun u v => addi u v) (hop := rfl),
    read_unary fresh 8 (x := main_call0_c_0) (y := main_call0_v2)
      (f := fun u => broadcastInDim S1600000 ![] Facts₀.bcast_S_S1600000 u) (hop := rfl),
    read_nullary fresh 7 (y := main_call0_c_0) (v := constantI S_ 32 100000#32) (hop := rfl)]
  have e := h_v1 m c
  change StableHlo.after line (fun b' => m (c, b')) (Proc.devRef .tc main_v1) = _ at e
  rw [e]
  rfl

theorem h_srcCol : (V m c main_call0_v5 : IVec S1600000x1 32) = srcCol (endsOf m c) := by
  refine (read_unary fresh 11 (x := main_call0_v4) (y := main_call0_v5)
    (f := fun u => broadcastInDim S1600000x1 ![0] Facts₀.bcast_S1600000_S1600000x1_0 u) (hop := rfl)).trans ?_
  have e := h_wrapped m c
  change StableHlo.after line (fun b' => m (c, b')) (Proc.devRef .tc main_call0_v4) = _ at e
  rw [e]
  rfl

theorem h_named : (V m c main_call0_v12 : IVec S1600000 1) = named (endsOf m c) := by
  refine (read_binary fresh 21 (a := main_call0_v11) (b := main_call0_c_3) (y := main_call0_v12)
    (f := fun u v => (StableHlo.TRef.of main_call0_v12 : StableHlo.TRef sig ⟨S1600000, .i1⟩).toBuf
      (Host.reduce IntOp.andi ((StableHlo.TRef.of main_call0_v11 : StableHlo.TRef sig ⟨S1600000x1, .i1⟩).ofBuf u)
        ((StableHlo.TRef.of main_call0_c_3 : StableHlo.TRef sig ⟨S_, .i1⟩).ofBuf v)
        Facts₀.reducesTo_S1600000x1_S1600000_d1 Facts₀.h_S_)) (hop := rfl)).trans ?_
  simp only [StableHlo.TRef.toBuf, StableHlo.TRef.ofBuf, cast_eq]
  rw [read_binary fresh 19 (a := main_call0_v7) (b := main_call0_v10) (y := main_call0_v11) (f := fun u v => andi u v) (hop := rfl),
    read_binary fresh 15 (a := main_call0_v5) (b := main_call0_v6) (y := main_call0_v7) (f := fun u v => cmpi .sge u v) (hop := rfl),
    read_unary fresh 14 (x := main_call0_c_2) (y := main_call0_v6)
      (f := fun u => broadcastInDim S1600000x1 ![] Facts₀.bcast_S_S1600000x1 u) (hop := rfl),
    read_nullary fresh 13 (y := main_call0_c_2) (v := constantI S_ 32 0#32) (hop := rfl),
    read_binary fresh 18 (a := main_call0_v5) (b := main_call0_v9) (y := main_call0_v10) (f := fun u v => cmpi .sle u v) (hop := rfl),
    read_unary fresh 17 (x := main_call0_v8) (y := main_call0_v9)
      (f := fun u => broadcastInDim S1600000x1 ![0, 1] Facts₀.bcast_S1x1_S1600000x1_0_1 u) (hop := rfl),
    read_unary fresh 16 (x := main_call0_c_1) (y := main_call0_v8)
      (f := fun u => broadcastInDim S1x1 ![1] Facts₀.bcast_S1_S1x1_1 u) (hop := rfl),
    read_nullary fresh 12 (y := main_call0_c_1) (v := constantI S1 32 99999#32) (hop := rfl),
    read_nullary fresh 20 (y := main_call0_c_3) (v := constantI S_ 1 1#1) (hop := rfl)]
  have e := h_srcCol m c
  change StableHlo.after line (fun b' => m (c, b')) (Proc.devRef .tc main_call0_v5) = _ at e
  rw [e]
  rfl

theorem h_taken : (V m c main_v4 : FVec Ideal S1600000x128 .f32) = taken (nodesOf m c) (endsOf m c) := by
  refine (read_ternary fresh 26 (c := main_call0_v14) (a := main_call0_v13) (b := main_call0_v15) (y := main_v4)
    (f := fun w u v => select w u v) (hop := rfl)).trans ?_
  rw [read_unary fresh 23 (x := main_call0_v12) (y := main_call0_v14)
      (f := fun u => broadcastInDim S1600000x128 ![0] Facts₀.bcast_S1600000_S1600000x128_0 u) (hop := rfl),
    read_binary fresh 22 (a := main_arg0) (b := main_call0_v5) (y := main_call0_v13)
      (f := fun x i => Host.gather gather_S100000x128_S1600000x1_S1600000x128_1_0_n_n_0_1_1128 x i) (hop := rfl),
    read_unary fresh 25 (x := main_call0_cst) (y := main_call0_v15)
      (f := fun u => broadcastInDim S1600000x128 ![] Facts₀.bcast_S_S1600000x128 u) (hop := rfl),
    read_nullary fresh 24 (y := main_call0_cst) (v := constant (F := Ideal) S_ .f32 0x7FC00000#32) (hop := rfl),
    held_arg0]
  have e := h_named m c
  change StableHlo.after line (fun b' => m (c, b')) (Proc.devRef .tc main_call0_v12) = _ at e
  have e' := h_srcCol m c
  change StableHlo.after line (fun b' => m (c, b')) (Proc.devRef .tc main_call0_v5) = _ at e'
  rw [e, e']
  rfl

theorem h_sumSrc : (V m c main_v7 : FVec Ideal S100000x128 .f32) = sumSrc (nodesOf m c) (endsOf m c) := by
  refine (read_ternary fresh 30 (c := main_v5) (a := main_v6) (b := main_v4) (y := main_v7)
    (f := fun x i u => Host.scatterAdd (F := Ideal) scatter_S100000x128_S1600000x1_S1600000x128_1_0_0_1 x i u) (hop := rfl)).trans ?_
  rw [read_unary fresh 28 (x := main_cst) (y := main_v5)
      (f := fun u => broadcastInDim S100000x128 ![] Facts₀.bcast_S_S100000x128 u) (hop := rfl),
    read_nullary fresh 27 (y := main_cst) (v := constant (F := Ideal) S_ .f32 0x00000000#32) (hop := rfl),
    read_unary fresh 29 (x := main_v3) (y := main_v6)
      (f := fun u => broadcastInDim S1600000x1 ![0] Facts₀.bcast_S1600000_S1600000x1_0 u) (hop := rfl)]
  have e := h_v3 m c
  change StableHlo.after line (fun b' => m (c, b')) (Proc.devRef .tc main_v3) = _ at e
  have e' := h_taken m c
  change StableHlo.after line (fun b' => m (c, b')) (Proc.devRef .tc main_v4) = _ at e'
  rw [e, e']
  rfl

theorem h_sumEdge : (V m c main_v10 : FVec Ideal S100000x128 .f32) = sumEdge (endsOf m c) (edgesOf m c) := by
  refine (read_ternary fresh 34 (c := main_v8) (a := main_v9) (b := main_arg2) (y := main_v10)
    (f := fun x i u => Host.scatterAdd (F := Ideal) scatter_S100000x128_S1600000x1_S1600000x128_1_0_0_1 x i u) (hop := rfl)).trans ?_
  rw [read_unary fresh 32 (x := main_cst_0) (y := main_v8)
      (f := fun u => broadcastInDim S100000x128 ![] Facts₀.bcast_S_S100000x128 u) (hop := rfl),
    read_nullary fresh 31 (y := main_cst_0) (v := constant (F := Ideal) S_ .f32 0x00000000#32) (hop := rfl),
    read_unary fresh 33 (x := main_v3) (y := main_v9)
      (f := fun u => broadcastInDim S1600000x1 ![0] Facts₀.bcast_S1600000_S1600000x1_0 u) (hop := rfl),
    held_arg2]
  have e := h_v3 m c
  change StableHlo.after line (fun b' => m (c, b')) (Proc.devRef .tc main_v3) = _ at e
  rw [e]
  rfl

theorem h_deg : (V m c main_v15 : FVec Ideal S100000x1 .f32) = degCol (endsOf m c) := by
  refine (read_reshape fresh 41 (x := main_v14) (y := main_v15) (hop := rfl)).trans ?_
  rw [read_ternary fresh 40 (c := main_v12) (a := main_v13) (b := main_v11) (y := main_v14)
      (f := fun x i u => Host.scatterAdd (F := Ideal) scatter_S100000_S1600000x1_S1600000_n_0_0_1 x i u) (hop := rfl),
    read_unary fresh 38 (x := main_cst_2) (y := main_v12)
      (f := fun u => broadcastInDim S100000 ![] Facts₀.bcast_S_S100000 u) (hop := rfl),
    read_nullary fresh 37 (y := main_cst_2) (v := constant (F := Ideal) S_ .f32 0x00000000#32) (hop := rfl),
    read_unary fresh 39 (x := main_v3) (y := main_v13)
      (f := fun u => broadcastInDim S1600000x1 ![0] Facts₀.bcast_S1600000_S1600000x1_0 u) (hop := rfl),
    read_unary fresh 36 (x := main_cst_1) (y := main_v11)
      (f := fun u => broadcastInDim S1600000 ![] Facts₀.bcast_S_S1600000 u) (hop := rfl),
    read_nullary fresh 35 (y := main_cst_1) (v := constant (F := Ideal) S_ .f32 0x3F800000#32) (hop := rfl)]
  have e := h_v3 m c
  change StableHlo.after line (fun b' => m (c, b')) (Proc.devRef .tc main_v3) = _ at e
  rw [e]
  rfl

theorem h_selfW : (V m c main_v16 : FVec Ideal S128x128 .f32) = flip (m ((c : Thread nD τ).loc main_arg3)) :=
  (read_unary fresh 42 (x := main_arg3) (y := main_v16)
    (f := fun u => transpose S128x128 [1, 0] u Facts₀.transposes_S128x128_S128x128_1_0) (hop := rfl)).trans
    (congrArg flip (V_main_arg3 m c))

theorem h_neiW : (V m c main_v17 : FVec Ideal S128x128 .f32) = flip (m ((c : Thread nD τ).loc main_arg5)) :=
  (read_unary fresh 43 (x := main_arg5) (y := main_v17)
    (f := fun u => transpose S128x128 [1, 0] u Facts₀.transposes_S128x128_S128x128_1_0) (hop := rfl)).trans
    (congrArg flip (V_main_arg5 m c))

theorem h_edgeW : (V m c main_v18 : FVec Ideal S128x128 .f32) = flip (m ((c : Thread nD τ).loc main_arg6)) :=
  (read_unary fresh 44 (x := main_arg6) (y := main_v18)
    (f := fun u => transpose S128x128 [1, 0] u Facts₀.transposes_S128x128_S128x128_1_0) (hop := rfl)).trans
    (congrArg flip (V_main_arg6 m c))

theorem h_bias : (V m c main_v19 : FVec Ideal S1x128 .f32) = biasRow (m ((c : Thread nD τ).loc main_arg4)) :=
  (read_reshape fresh 45 (x := main_arg4) (y := main_v19) (hop := rfl)).trans (congrArg biasRow (V_main_arg4 m c))

end Cert.KerHost

end
-- ==== Proof.LayerSpec.lean ====
/-
  One layer of a graph network with edge features, as a function of its seven argument arrays, entry by entry.

  Node features x [100000, 128]; the two rows of ends [2, 1600000] (row 0 the source node of each edge, row 1 its
  target); edge features [1600000, 128]; three square weight matrices and a bias row. The message of edge e is the
  source node's features through the neighbour weights plus the edge's features through the edge weights; a node sums
  the messages of the edges that point at it, divides by the number of such edges (at least one), adds its own features
  through the self weights and the bias, and keeps the positive part:

    out (n, j) = max ( (sum_k x (n, k) * Ws (j, k) + b j) + (0 + sum_{e -> n} msg (e, j)) / max (deg n) 1 ) 0 .

  A source word is read as a signed integer and clamped into the node range; a target word that names no node is the
  target of no sum.
-/
import Idealize.ShloMosaic.PureOps.Ideal
import Idealize.ShloMosaic.PureOps.Ideal.Laws
import Idealize.ShloMosaic.Lib.ValueIdx

noncomputable section

open scoped BigOperators

namespace Cert.LayerSpec

open Idealize.ShloMosaic Idealize.ShloMosaic.ValueIdx

abbrev Nodes : Shape := ⟨2, ![100000, 128]⟩
abbrev Ends : Shape := ⟨2, ![2, 1600000]⟩
abbrev Edges : Shape := ⟨2, ![1600000, 128]⟩
abbrev Sq : Shape := ⟨2, ![128, 128]⟩
abbrev Row : Shape := ⟨1, ![128]⟩

/-- The word naming the source node of edge `e`. -/
def srcW (ei : IVec Ends 32) (e : Fin 1600000) : BitVec 32 := ei (ix2 (0 : Fin 2) e)

/-- The word naming the target node of edge `e`. -/
def dstW (ei : IVec Ends 32) (e : Fin 1600000) : BitVec 32 := ei (ix2 (1 : Fin 2) e)

/-- The source node of edge `e`: its word read signed, clamped into the node range. -/
def srcRow (ei : IVec Ends 32) (e : Fin 1600000) : Fin 100000 :=
  ⟨min (srcW ei e).toInt.toNat 99999, by omega⟩

/-- The edges whose target is node `n`. -/
def edgesInto (ei : IVec Ends 32) (n : Fin 100000) : Finset (Fin 1600000) :=
  Finset.univ.filter fun e => (dstW ei e).toInt = (n.val : Int)

/-- The float one, as both programs spell it. -/
abbrev one : EReal := Ideal.ofBits .f32 0x3F800000#32

/-- Column `j` of the message of edge `e`. -/
def message (x : Nodes.Idx → EReal) (ei : IVec Ends 32) (ea : Edges.Idx → EReal) (wn we : Sq.Idx → EReal)
    (e : Fin 1600000) (j : Fin 128) : EReal :=
  (∑ k : Fin 128, x (ix2 (srcRow ei e) k) * wn (ix2 j k)) + (∑ k : Fin 128, ea (ix2 e k) * we (ix2 j k))

/-- The number of edges into node `n`, as a sum of ones. -/
def degree (ei : IVec Ends 32) (n : Fin 100000) : EReal := 0 + ∑ _e ∈ edgesInto ei n, one

/-- The layer's output at node `n`, column `j`. -/
def outAt (x : Nodes.Idx → EReal) (ei : IVec Ends 32) (ea : Edges.Idx → EReal) (ws : Sq.Idx → EReal)
    (b : Row.Idx → EReal) (wn we : Sq.Idx → EReal) (n : Fin 100000) (j : Fin 128) : EReal :=
  max (((∑ k : Fin 128, x (ix2 n k) * ws (ix2 j k)) + b (ix1 j))
      + Ideal.div (0 + ∑ e ∈ edgesInto ei n, message x ei ea wn we e j) (max (degree ei n) one)) 0

/-- The layer's output array. -/
def out (x : Nodes.Idx → EReal) (ei : IVec Ends 32) (ea : Edges.Idx → EReal) (ws : Sq.Idx → EReal)
    (b : Row.Idx → EReal) (wn we : Sq.Idx → EReal) : Nodes.Idx → EReal :=
  fun i => outAt x ei ea ws b wn we (i 0) (i 1)

theorem out_ix2 (x : Nodes.Idx → EReal) (ei : IVec Ends 32) (ea : Edges.Idx → EReal) (ws : Sq.Idx → EReal)
    (b : Row.Idx → EReal) (wn we : Sq.Idx → EReal) (n : Fin 100000) (j : Fin 128) :
    out x ei ea ws b wn we (ix2 n j) = outAt x ei ea ws b wn we n j := rfl

/-- Every source word names a node. -/
def SrcInRange (ei : IVec Ends 32) : Prop :=
  ∀ e : Fin 1600000, 0 ≤ (srcW ei e).toInt ∧ (srcW ei e).toInt < 100000

end Cert.LayerSpec

end
-- ==== Proof.LibScatterRows.lean ====
/-
  A scatter-add of rows read at an index, on the extended reals.

  Updates [M, C] are added into an operand [R, C]: row p of the updates goes to the operand row named by start index
  p — a column [M, 1] of words read as signed integers and not clamped — and keeps its column; a row whose index falls
  outside the operand is dropped. At (n, o) the result is the operand there plus the sum, over the update rows whose
  index is n, of the update at (p, o).
-/
import Idealize.ShloMosaic.PureOps.Ideal
import Idealize.ShloMosaic.PureOps.Contract
import Idealize.ShloMosaic.Lib.ValueIdx

noncomputable section

open scoped BigOperators

namespace Cert.ScatterRows

open Idealize.ShloMosaic Idealize.ShloMosaic.ValueIdx

/-- The dimension numbers of a scatter-add of rows, opened: operand [R, C], a column [M, 1] of start indices, updates
    [M, C]; the update's column axis is its one window axis, the operand's row axis is the one inserted axis and the one
    axis a start index names, and the index vector lies along the indices' second axis. -/
abbrev scatterRowsDims {R C M : Nat}
    (wf : ScatterDims.WF ⟨2, ![R, C]⟩ ⟨2, ![M, 1]⟩ ⟨2, ![M, C]⟩ [1] [0] [0] 1) :
    ScatterDims ⟨2, ![R, C]⟩ ⟨2, ![M, 1]⟩ ⟨2, ![M, C]⟩ where
  updateWindowDims := [1]
  insertedWindowDims := [0]
  scatterDimsToOperandDims := [0]
  indexVectorDim := 1
  wf := wf

/-- On the row axis the window of update (p, q) starts at start index p, read signed and not clamped. -/
theorem scatterRows_start0 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (0 : Fin 2) = (idx (ix2 p (0 : Fin 1))).toInt := by
  have hm : (0 : Fin 2) ∈ (scatterRowsDims wf).scatterDimsToOperandDims := by
    show (0 : Fin 2) ∈ ([0] : List (Fin 2)); decide
  unfold ScatterDims.start
  rw [dif_pos hm]
  have hsi : (scatterRowsDims wf).siIdx (ix2 p q) ⟨List.idxOf (0 : Fin 2) (scatterRowsDims wf).scatterDimsToOperandDims,
      List.idxOf_lt_length_iff.2 hm⟩ = ix2 p (0 : Fin 1) := by
    funext b; refine Fin.ext ?_
    match b with
    | ⟨0, _⟩ => rfl
    | ⟨1, _⟩ => rfl
  rw [hsi]

/-- On the column axis no start index is named: the window of update (p, q) starts at 0. -/
theorem scatterRows_start1 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (1 : Fin 2) = 0 := by
  have hm : (1 : Fin 2) ∉ (scatterRowsDims wf).scatterDimsToOperandDims := by
    show (1 : Fin 2) ∉ ([0] : List (Fin 2)); decide
  unfold ScatterDims.start
  rw [dif_neg hm]

/-- The row axis is inserted: the window coordinate of update (p, q) there is 0. -/
theorem scatterRows_window0 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (0 : Fin 2) = 0 := by
  have hk : (0 : Fin 2) ∉ (scatterRowsDims wf).sKept := by
    show (0 : Fin 2) ∉ ((List.finRange 2).filter (fun a => a ∉ ([0] : List (Fin 2)))); decide
  unfold ScatterDims.window
  rw [dif_neg hk]

/-- The column axis is the one window axis: the window coordinate of update (p, q) there is q. -/
theorem scatterRows_window1 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (1 : Fin 2) = q.val := by
  have hk : (1 : Fin 2) ∈ (scatterRowsDims wf).sKept := by
    show (1 : Fin 2) ∈ ((List.finRange 2).filter (fun a => a ∉ ([0] : List (Fin 2)))); decide
  unfold ScatterDims.window
  rw [dif_pos hk]
  rfl

/-- Update (p, q) lands on operand element (n, o) exactly when start index p, read signed, is n and q is o: on the row
    axis the landing coordinate is the start index (which must lie in [0, R) to land at all), on the column axis it is
    q. -/
theorem scatterRows_resultIdx_iff {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) (n : Fin R) (o : Fin C) :
    (scatterRowsDims wf).resultIdx? (ix2 p q) idx = some (ix2 n o)
      ↔ (idx (ix2 p (0 : Fin 1))).toInt = (n.val : Int) ∧ q = o := by
  have h0 : (scatterRowsDims wf).start (ix2 p q) idx (0 : Fin 2) + (scatterRowsDims wf).window (ix2 p q) (0 : Fin 2)
      = (idx (ix2 p (0 : Fin 1))).toInt := by
    rw [scatterRows_start0, scatterRows_window0]; simp
  have h1 : (scatterRowsDims wf).start (ix2 p q) idx (1 : Fin 2) + (scatterRowsDims wf).window (ix2 p q) (1 : Fin 2)
      = (q.val : Int) := by
    rw [scatterRows_start1, scatterRows_window1]; simp
  unfold ScatterDims.resultIdx?
  constructor
  · intro h
    split_ifs at h with hc
    have e := Option.some.inj h
    have e0 : ((scatterRowsDims wf).start (ix2 p q) idx (0 : Fin 2)
        + (scatterRowsDims wf).window (ix2 p q) (0 : Fin 2)).toNat = n.val := congrArg Fin.val (congrFun e (0 : Fin 2))
    have e1 : ((scatterRowsDims wf).start (ix2 p q) idx (1 : Fin 2)
        + (scatterRowsDims wf).window (ix2 p q) (1 : Fin 2)).toNat = o.val := congrArg Fin.val (congrFun e (1 : Fin 2))
    have c0 := (hc (0 : Fin 2)).1
    rw [h0] at e0 c0
    rw [h1] at e1
    refine ⟨by omega, Fin.ext (by omega)⟩
  · rintro ⟨hn, rfl⟩
    have hc : ∀ a : Fin 2, 0 ≤ (scatterRowsDims wf).start (ix2 p q) idx a + (scatterRowsDims wf).window (ix2 p q) a
        ∧ (scatterRowsDims wf).start (ix2 p q) idx a + (scatterRowsDims wf).window (ix2 p q) a
          < (⟨2, ![R, C]⟩ : Shape).size a := by
      intro a
      match a with
      | ⟨0, _⟩ =>
        show 0 ≤ (scatterRowsDims wf).start (ix2 p q) idx (0 : Fin 2) + (scatterRowsDims wf).window (ix2 p q) (0 : Fin 2)
          ∧ (scatterRowsDims wf).start (ix2 p q) idx (0 : Fin 2) + (scatterRowsDims wf).window (ix2 p q) (0 : Fin 2)
            < (R : Int)
        rw [h0, hn]; have := n.isLt; omega
      | ⟨1, _⟩ =>
        show 0 ≤ (scatterRowsDims wf).start (ix2 p q) idx (1 : Fin 2) + (scatterRowsDims wf).window (ix2 p q) (1 : Fin 2)
          ∧ (scatterRowsDims wf).start (ix2 p q) idx (1 : Fin 2) + (scatterRowsDims wf).window (ix2 p q) (1 : Fin 2)
            < (C : Int)
        rw [h1]; have := q.isLt; omega
    rw [dif_pos hc]
    congr 1
    funext a
    refine Fin.ext ?_
    match a with
    | ⟨0, _⟩ =>
      show ((scatterRowsDims wf).start (ix2 p q) idx (0 : Fin 2)
        + (scatterRowsDims wf).window (ix2 p q) (0 : Fin 2)).toNat = n.val
      rw [h0, hn]; rfl
    | ⟨1, _⟩ =>
      show ((scatterRowsDims wf).start (ix2 p q) idx (1 : Fin 2)
        + (scatterRowsDims wf).window (ix2 p q) (1 : Fin 2)).toNat = q.val
      rw [h1]; rfl

/-- THE SCATTER-ADD OF ROWS at (n, o). The four hypotheses are the printed dimension numbers, each by `rfl`. -/
theorem scatter_rows_apply {R C M : Nat} (d : ScatterDims ⟨2, ![R, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![R, C]⟩ : Shape).Idx → EReal) (idx : IVec ⟨2, ![M, 1]⟩ 32) (upd : (⟨2, ![M, C]⟩ : Shape).Idx → EReal)
    (n : Fin R) (o : Fin C) :
    Host.scatterAdd (F := Ideal) (φ := .f32) d x idx upd (ix2 n o)
      = x (ix2 n o) + ∑ p ∈ Finset.univ.filter (fun p : Fin M => (idx (ix2 p (0 : Fin 1))).toInt = (n.val : Int)),
          upd (ix2 p o) := by
  obtain ⟨uw, iw, sd, iv, wf⟩ := d
  dsimp only at huw hiw hsd hiv
  subst huw hiw hsd hiv
  show Ideal.hostScatterAdd (scatterRowsDims wf) x idx upd (ix2 n o) = _
  unfold Ideal.hostScatterAdd
  congr 1
  -- both filtered sums become sums of guarded terms; the sum over update indices is the double sum over (p, q)
  rw [Finset.sum_filter, Finset.sum_filter, sum_idx2]
  refine Finset.sum_congr rfl fun p _ => ?_
  -- row p: the guard on (p, q) is "start index p is n, and q = o"; the inner sum over q keeps the one term q = o
  simp only [scatterRows_resultIdx_iff]
  by_cases hp : (idx (ix2 p (0 : Fin 1))).toInt = (n.val : Int)
  · simp only [hp, true_and, if_true]
    exact (Finset.sum_ite_eq' Finset.univ o fun q => upd (ix2 p q)).trans (if_pos (Finset.mem_univ o))
  · simp only [hp, false_and, if_false]
    exact Finset.sum_const_zero

end Cert.ScatterRows

end
-- ==== Proof.LibScatterVec.lean ====
/-
  A scatter-add of scalars read at an index, on the extended reals.

  Updates [M] are added into an operand [R]: update p goes to the operand entry named by start index p — a column
  [M, 1] of words read as signed integers and not clamped —; an update whose index falls outside the operand is
  dropped. At n the result is the operand there plus the sum of the updates whose index is n.
-/
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.ScatterVec

open Idealize.ShloMosaic Idealize.ShloMosaic.ValueIdx

/-- The dimension numbers of a scatter-add of scalars, opened: operand [R], a column [M, 1] of start indices, updates
    [M]; the updates have no window axis, the operand's one axis is inserted and is the axis a start index names, and
    the index vector lies along the indices' second axis. -/
abbrev scatterVecDims {R M : Nat}
    (wf : ScatterDims.WF ⟨1, ![R]⟩ ⟨2, ![M, 1]⟩ ⟨1, ![M]⟩ [] [0] [0] 1) :
    ScatterDims ⟨1, ![R]⟩ ⟨2, ![M, 1]⟩ ⟨1, ![M]⟩ where
  updateWindowDims := []
  insertedWindowDims := [0]
  scatterDimsToOperandDims := [0]
  indexVectorDim := 1
  wf := wf

/-- The window of update p starts at start index p, read signed and not clamped. -/
theorem scatterVec_start {R M : Nat}
    (wf : ScatterDims.WF ⟨1, ![R]⟩ ⟨2, ![M, 1]⟩ ⟨1, ![M]⟩ [] [0] [0] 1)
    (idx : IVec ⟨2, ![M, 1]⟩ 32) (p : Fin M) :
    (scatterVecDims wf).start (ix1 p) idx (0 : Fin 1) = (idx (ix2 p (0 : Fin 1))).toInt := by
  have hm : (0 : Fin 1) ∈ (scatterVecDims wf).scatterDimsToOperandDims := by
    show (0 : Fin 1) ∈ ([0] : List (Fin 1)); decide
  unfold ScatterDims.start
  rw [dif_pos hm]
  have hsi : (scatterVecDims wf).siIdx (ix1 p) ⟨List.idxOf (0 : Fin 1) (scatterVecDims wf).scatterDimsToOperandDims,
      List.idxOf_lt_length_iff.2 hm⟩ = ix2 p (0 : Fin 1) := by
    funext b; refine Fin.ext ?_
    match b with
    | ⟨0, _⟩ => rfl
    | ⟨1, _⟩ => rfl
  rw [hsi]

/-- The operand's one axis is inserted: the window coordinate of update p there is 0. -/
theorem scatterVec_window {R M : Nat}
    (wf : ScatterDims.WF ⟨1, ![R]⟩ ⟨2, ![M, 1]⟩ ⟨1, ![M]⟩ [] [0] [0] 1) (p : Fin M) :
    (scatterVecDims wf).window (ix1 p) (0 : Fin 1) = 0 := by
  have hk : (0 : Fin 1) ∉ (scatterVecDims wf).sKept := by
    show (0 : Fin 1) ∉ ((List.finRange 1).filter (fun a => a ∉ ([0] : List (Fin 1)))); decide
  unfold ScatterDims.window
  rw [dif_neg hk]

/-- Update p lands on operand entry n exactly when start index p, read signed, is n (it must lie in [0, R) to land at
    all). -/
theorem scatterVec_resultIdx_iff {R M : Nat}
    (wf : ScatterDims.WF ⟨1, ![R]⟩ ⟨2, ![M, 1]⟩ ⟨1, ![M]⟩ [] [0] [0] 1)
    (idx : IVec ⟨2, ![M, 1]⟩ 32) (p : Fin M) (n : Fin R) :
    (scatterVecDims wf).resultIdx? (ix1 p) idx = some (ix1 n)
      ↔ (idx (ix2 p (0 : Fin 1))).toInt = (n.val : Int) := by
  have h0 : (scatterVecDims wf).start (ix1 p) idx (0 : Fin 1) + (scatterVecDims wf).window (ix1 p) (0 : Fin 1)
      = (idx (ix2 p (0 : Fin 1))).toInt := by
    rw [scatterVec_start, scatterVec_window]; simp
  unfold ScatterDims.resultIdx?
  constructor
  · intro h
    split_ifs at h with hc
    have e := Option.some.inj h
    have e0 : ((scatterVecDims wf).start (ix1 p) idx (0 : Fin 1)
        + (scatterVecDims wf).window (ix1 p) (0 : Fin 1)).toNat = n.val := congrArg Fin.val (congrFun e (0 : Fin 1))
    have c0 := (hc (0 : Fin 1)).1
    rw [h0] at e0 c0
    omega
  · intro hn
    have hc : ∀ a : Fin 1, 0 ≤ (scatterVecDims wf).start (ix1 p) idx a + (scatterVecDims wf).window (ix1 p) a
        ∧ (scatterVecDims wf).start (ix1 p) idx a + (scatterVecDims wf).window (ix1 p) a
          < (⟨1, ![R]⟩ : Shape).size a := by
      intro a
      match a with
      | ⟨0, _⟩ =>
        show 0 ≤ (scatterVecDims wf).start (ix1 p) idx (0 : Fin 1) + (scatterVecDims wf).window (ix1 p) (0 : Fin 1)
          ∧ (scatterVecDims wf).start (ix1 p) idx (0 : Fin 1) + (scatterVecDims wf).window (ix1 p) (0 : Fin 1)
            < (R : Int)
        rw [h0, hn]; have := n.isLt; omega
    rw [dif_pos hc]
    congr 1
    funext a
    refine Fin.ext ?_
    match a with
    | ⟨0, _⟩ =>
      show ((scatterVecDims wf).start (ix1 p) idx (0 : Fin 1)
        + (scatterVecDims wf).window (ix1 p) (0 : Fin 1)).toNat = n.val
      rw [h0, hn]; rfl

/-- THE SCATTER-ADD OF SCALARS at n. The four hypotheses are the printed dimension numbers, each by `rfl`. -/
theorem scatter_vec_apply {R M : Nat} (d : ScatterDims ⟨1, ![R]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![R]⟩ : Shape).Idx → EReal) (idx : IVec ⟨2, ![M, 1]⟩ 32) (upd : (⟨1, ![M]⟩ : Shape).Idx → EReal)
    (n : Fin R) :
    Host.scatterAdd (F := Ideal) (φ := .f32) d x idx upd (ix1 n)
      = x (ix1 n) + ∑ p ∈ Finset.univ.filter (fun p : Fin M => (idx (ix2 p (0 : Fin 1))).toInt = (n.val : Int)),
          upd (ix1 p) := by
  obtain ⟨uw, iw, sd, iv, wf⟩ := d
  dsimp only at huw hiw hsd hiv
  subst huw hiw hsd hiv
  show Ideal.hostScatterAdd (scatterVecDims wf) x idx upd (ix1 n) = _
  unfold Ideal.hostScatterAdd
  congr 1
  -- both filtered sums become sums of guarded terms; the sum over update indices is the sum over their one coordinate
  rw [Finset.sum_filter, Finset.sum_filter, ← Equiv.sum_comp (idxEquiv1 (n := M)).symm]
  refine Finset.sum_congr rfl fun p _ => ?_
  show (if (scatterVecDims wf).resultIdx? (ix1 p) idx = some (ix1 n) then upd (ix1 p) else 0) = _
  simp only [scatterVec_resultIdx_iff]

end Cert.ScatterVec

end
-- ==== Proof.LibTakeRows.lean ====
/-
  A take of rows read at an index.

  A gather of an operand [R, C] at a column [M, 1] of start indices, whose start-indexed row axis is collapsed and whose
  column axis is the one offset axis, reads at (p, q) the operand's row named by start index p — read as a signed
  integer and clamped into [0, R − 1] — at column q.
-/
import Idealize.ShloMosaic.Lib.ValueIdx
import Idealize.ShloMosaic.Lib.Pipeline.Value

noncomputable section

namespace Cert.TakeRows

open Idealize.ShloMosaic Idealize.ShloMosaic.ValueIdx

variable {α : Type}

/-- The dimension numbers of a take of rows, opened: operand [R, C], a column [M, 1] of start indices, result [M, C];
    the rows are start-indexed and collapsed, the columns are the one offset axis. The start indices' batching axes and
    the slice sizes stay as the record has them. -/
abbrev takeRowsDims {R C M : Nat} (sb : List (Fin 2)) (ss : Fin 2 → Nat)
    (wf : GatherDims.WF ⟨2, ![R, C]⟩ ⟨2, ![M, 1]⟩ ⟨2, ![M, C]⟩ [1] [0] [] [0] sb 1 ss) :
    GatherDims ⟨2, ![R, C]⟩ ⟨2, ![M, 1]⟩ ⟨2, ![M, C]⟩ where
  offsetDims := [1]
  collapsedSliceDims := [0]
  operandBatchingDims := []
  startIndicesBatchingDims := sb
  startIndexMap := [0]
  indexVectorDim := 1
  sliceSizes := ss
  wf := wf

/-- On the row axis the operand coordinate of result (p, q) is start index p, read signed and clamped to R − 1 (the slice
    size on a collapsed axis is one); no batching, no offset. -/
theorem takeRows_axis0 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (0 : Fin 2) + (takeRowsDims sb ss wf).batchCoord (ix2 p q) (0 : Fin 2)
        + (takeRowsDims sb ss wf).offCoord (ix2 p q) (0 : Fin 2)
      = min (idx (ix2 p (0 : Fin 1))).toInt.toNat (R - 1) := by
  have hm : (0 : Fin 2) ∈ (takeRowsDims sb ss wf).startIndexMap := by
    show (0 : Fin 2) ∈ ([0] : List (Fin 2)); decide
  have hsl : ss 0 = 1 := (takeRowsDims sb ss wf).slice_collapsed 0 (by show (0 : Fin 2) ∈ ([0] : List (Fin 2)); decide)
  rw [GatherDims.batchCoord_eq_zero _ _ _ List.not_mem_nil,
    GatherDims.offCoord_eq_zero _ _ _ (fun h => ((GatherDims.mem_sKept _ _).mp h).1
      (show (0 : Fin 2) ∈ ([0] : List (Fin 2)) by decide))]
  simp only [Nat.add_zero]
  unfold GatherDims.start
  rw [dif_pos hm]
  have hsi : (takeRowsDims sb ss wf).siIdx (ix2 p q) ⟨List.idxOf (0 : Fin 2) (takeRowsDims sb ss wf).startIndexMap,
      List.idxOf_lt_length_iff.2 hm⟩ = ix2 p (0 : Fin 1) := by
    funext b; refine Fin.ext ?_
    match b with
    | ⟨0, _⟩ => rfl
    | ⟨1, _⟩ => rfl
  rw [hsi]
  show min (idx (ix2 p (0 : Fin 1))).toInt.toNat (R - ss 0) = _
  rw [hsl]

/-- On the column axis the operand coordinate of result (p, q) is q: no start index, no batching, offset q. -/
theorem takeRows_axis1 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (1 : Fin 2) + (takeRowsDims sb ss wf).batchCoord (ix2 p q) (1 : Fin 2)
        + (takeRowsDims sb ss wf).offCoord (ix2 p q) (1 : Fin 2) = q.val := by
  have hm : (1 : Fin 2) ∉ (takeRowsDims sb ss wf).startIndexMap := by
    show (1 : Fin 2) ∉ ([0] : List (Fin 2)); decide
  have hk : (1 : Fin 2) ∈ (takeRowsDims sb ss wf).sKept :=
    (GatherDims.mem_sKept _ _).mpr ⟨by show (1 : Fin 2) ∉ ([0] : List (Fin 2)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

/-- THE TAKE OF ROWS. A gather of an operand [R, C] at a column [M, 1] of start indices, whose one start-indexed axis
    (the rows) is collapsed and whose column axis is the one offset axis (the printed dimension numbers, each by `rfl`),
    reads at (p, q) the operand's row named by start index p, read signed and clamped into [0, R − 1], at column q. -/
theorem take_rows_apply {R C M : Nat} (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![M, 1]⟩ 32) (p : Fin M) (q : Fin C) :
    Host.gather d x idx (ix2 p q)
      = x (ix2 (⟨min (idx (ix2 p (0 : Fin 1))).toInt.toNat (R - 1), by omega⟩ : Fin R) q) := by
  obtain ⟨od, cd, ob, sb, sim, ivd, ss, wf⟩ := d
  dsimp only at hoff hcoll hob hsim hivd
  subst hoff hcoll hob hsim hivd
  show Host.gather (takeRowsDims sb ss wf) x idx (ix2 p q) = _
  unfold Host.gather
  congr 1
  funext a
  refine Fin.ext ?_
  show (takeRowsDims sb ss wf).start (ix2 p q) idx a + (takeRowsDims sb ss wf).batchCoord (ix2 p q) a
    + (takeRowsDims sb ss wf).offCoord (ix2 p q) a = _
  match a with
  | ⟨0, _⟩ => exact takeRows_axis0 sb ss wf idx p q
  | ⟨1, _⟩ => exact takeRows_axis1 sb ss wf idx p q

end Cert.TakeRows

end
-- ==== Proof.LibColumn.lean ====
/-
  A column kept by a row reduction (`keepdims=True`), read at an index: a vector of length a cast to an [a, 1] column
  reads, at (i, u), the vector at i; the column broadcast along the rows of an [a, b] array reads, at (p, c), its entry
  at row p. Companions of the library's leading-unit-axis casts and of its one-row broadcast.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibUnitAxis.lean ====
/-
  Index broadcasts and a conjunction over a unit axis, read at an index.

  A vector laid as a column, or repeated along columns, reads the vector's entry of the row; a scalar laid over any shape
  reads its one value; the conjunction of a one-bit column [M, 1] over its unit axis, from the initial value one, is the
  column's own bit.
-/
import Idealize.ShloMosaic.Lib.ValueIdx
import Idealize.ShloMosaic.Lib.Pipeline.Value
import Idealize.ShloMosaic.Lib.ValueLayout
import Idealize.ShloMosaic.PureOps.Reduce

noncomputable section

namespace Cert.LibUnitAxis

open Idealize.ShloMosaic Idealize.ShloMosaic.ValueIdx

variable {α : Type}

/-- A vector [M] laid as one column [M, 1], read at (p, 0): the vector at p. -/
theorem bcast_col_apply {M : Nat} (h : (⟨1, ![M]⟩ : Shape).BroadcastsInDim ⟨2, ![M, 1]⟩ ![0])
    (v : (⟨1, ![M]⟩ : Shape).Idx → α) (p : Fin M) :
    broadcastInDim ⟨2, ![M, 1]⟩ ![0] h v (ix2 p (0 : Fin 1)) = v (ix1 p) := by
  refine broadcastInDim_apply _ h v _ (ix1 p) ?_
  intro a
  match a with
  | ⟨0, _⟩ =>
    show p.val = if M = 1 then 0 else p.val
    split
    · next h1 => have := p.isLt; omega
    · rfl

/-- A vector [M] repeated along C columns [M, C], read at (p, q): the vector at p. -/
theorem bcast_cols_apply {M C : Nat} (h : (⟨1, ![M]⟩ : Shape).BroadcastsInDim ⟨2, ![M, C]⟩ ![0])
    (v : (⟨1, ![M]⟩ : Shape).Idx → α) (p : Fin M) (q : Fin C) :
    broadcastInDim ⟨2, ![M, C]⟩ ![0] h v (ix2 p q) = v (ix1 p) := by
  refine broadcastInDim_apply _ h v _ (ix1 p) ?_
  intro a
  match a with
  | ⟨0, _⟩ =>
    show p.val = if M = 1 then 0 else p.val
    split
    · next h1 => have := p.isLt; omega
    · rfl

/-- A scalar constant laid over a column [M, 1] or any shape reads its one value everywhere. -/
theorem bcast_scalar_apply {t : Shape} (h : (⟨0, ![]⟩ : Shape).BroadcastsInDim t ![]) (v : (⟨0, ![]⟩ : Shape).Idx → α)
    (j : t.Idx) : broadcastInDim t ![] h v j = v ix0 := by
  exact broadcastInDim_apply _ h v j ix0 (fun a => a.elim0)

/-- THE MASK'S REDUCTION. The conjunction of a one-bit column [M, 1] over its unit axis, from an initial value 1, is
    at p the column's bit at (p, 0): one element, and 1 ∧ b = b. -/
theorem reduce_andi_unit_apply {M : Nat} {u : Shape} (x : IVec ⟨2, ![M, 1]⟩ 1) (init : u.Idx → BitVec 1)
    (h : (⟨2, ![M, 1]⟩ : Shape).ReducesTo [1] ⟨1, ![M]⟩) (hu : 0 < u.numel) (hinit : ∀ i, init i = 1#1) (p : Fin M) :
    Host.reduce IntOp.andi x init h hu (ix1 p) = x (ix2 p (0 : Fin 1)) := by
  rw [Host.reduce_eq_fold]
  have hset : (Finset.univ.filter fun i : (⟨2, ![M, 1]⟩ : Shape).Idx => h.drop i = ix1 p)
      = {ix2 p (0 : Fin 1)} := by
    ext i
    simp only [Finset.mem_filter, Finset.mem_univ, true_and, Finset.mem_singleton]
    have hv : ((h.drop i) 0 : Nat) = (i 0).val := Shape.ReducesTo.drop_apply_val h i 0
    constructor
    · intro e
      rw [e] at hv
      funext a
      match a with
      | ⟨0, _⟩ => exact Fin.ext hv.symm
      | ⟨1, _⟩ =>
        refine Fin.ext ?_
        have h1 : (i 1).val < 1 := (i 1).isLt
        show (i 1).val = 0
        omega
    · intro e
      subst e
      funext b
      match b with
      | ⟨0, _⟩ => exact Fin.ext hv
  rw [hset, Finset.fold_singleton, hinit]
  rcases BitVec.eq_zero_or_eq_one (x (ix2 p (0 : Fin 1))) with e | e <;> rw [e] <;> decide

end Cert.LibUnitAxis

end
-- ==== Proof.KerRead.lean ====
/-
  The arrays the launch finds, read at an index.

  With every source word naming a node: the wrap of a negative source leaves the word as it is, the "names a node" test
  is one everywhere, and the taken row of an edge is the source node's row. Summing by target, each of the three sums is
  zero plus the sum over the edges into the node. A transposed weight matrix reads the matrix at the exchanged index,
  and the bias row reads the bias.
-/
import proofs.«409598_j61134564491909_3_alg».proof.Proof.KerHost
import proofs.«409598_j61134564491909_3_alg».proof.Proof.LayerSpec
import proofs.«409598_j61134564491909_3_alg».proof.Proof.LibScatterRows
import proofs.«409598_j61134564491909_3_alg».proof.Proof.LibScatterVec
import proofs.«409598_j61134564491909_3_alg».proof.Proof.LibTakeRows
import proofs.«409598_j61134564491909_3_alg».proof.Proof.LibColumn
import proofs.«409598_j61134564491909_3_alg».proof.Proof.LibUnitAxis
import Idealize.ShloMosaic.Lib.Affine
import Idealize.ShloMosaic.Lib.ValueLayout
import Idealize.ShloMosaic.PureOps.Ideal.Laws

noncomputable section

open scoped BigOperators

namespace Cert.KerRead

open Cert.KernelIdeal Cert.KerHost Cert.LayerSpec Cert.LibUnitAxis Idealize.ShloMosaic Idealize.ShloMosaic.ValueIdx

variable (ei : IVec S2x1600000 32)

/-- Row 0 of the ends, flattened, holds the source words. -/
theorem srcVec_read (e : Fin 1600000) : srcVec ei (ix1 e) = srcW ei e := by
  unfold srcVec
  refine (shapeCast_apply _ _ (ix1 e) (ix2 (0 : Fin 1) e) ?_).trans ?_
  · rw [Shape.rowMajor_val_two, Shape.rowMajor_val_one]
    show (0 : Nat) * 1600000 + e.val = e.val
    omega
  · refine extractStridedSlice_apply _ _ _ (ix2 (0 : Fin 1) e) (ix2 (0 : Fin 2) e) ?_
    intro a
    match a with
    | ⟨0, _⟩ => rfl
    | ⟨1, _⟩ => show e.val = 0 + e.val; omega

/-- Row 1 of the ends, flattened, holds the target words. -/
theorem dstVec_read (e : Fin 1600000) : dstVec ei (ix1 e) = dstW ei e := by
  unfold dstVec
  refine (shapeCast_apply _ _ (ix1 e) (ix2 (0 : Fin 1) e) ?_).trans ?_
  · rw [Shape.rowMajor_val_two, Shape.rowMajor_val_one]
    show (0 : Nat) * 1600000 + e.val = e.val
    omega
  · refine extractStridedSlice_apply _ _ _ (ix2 (0 : Fin 1) e) (ix2 (1 : Fin 2) e) ?_
    intro a
    match a with
    | ⟨0, _⟩ => rfl
    | ⟨1, _⟩ => show e.val = 0 + e.val; omega

/-- The column of targets holds the target words. -/
theorem dstCol_read (e : Fin 1600000) : dstCol ei (ix2 e (0 : Fin 1)) = dstW ei e := by
  unfold dstCol
  rw [bcast_col_apply, dstVec_read]

/-- A source that names a node is not negative: the wrap leaves it. -/
theorem wrapped_read (h : SrcInRange ei) (e : Fin 1600000) : wrapped ei (ix1 e) = srcW ei e := by
  unfold wrapped
  rw [select_apply]
  show Scalar.select (IntOp.cmpi .slt (srcVec ei (ix1 e)) 0#32) _ (srcVec ei (ix1 e)) = _
  rw [srcVec_read]
  have hz : IntOp.cmpi .slt (srcW ei e) 0#32 = 0#1 := by
    refine eq_zero_of_ne_one fun hc => ?_
    have := IntOp.cmpi_slt.1 hc
    have h0 := (h e).1
    rw [BitVec.toInt_zero] at this
    omega
  rw [hz, select_zero]

/-- The column of wrapped sources holds the source words. -/
theorem srcCol_read (h : SrcInRange ei) (e : Fin 1600000) : srcCol ei (ix2 e (0 : Fin 1)) = srcW ei e := by
  unfold srcCol
  rw [bcast_col_apply, wrapped_read ei h]

/-- Every source names a node. -/
theorem named_read (h : SrcInRange ei) (e : Fin 1600000) : named ei (ix1 e) = 1#1 := by
  unfold KerHost.named
  rw [reduce_andi_unit_apply (init := constantI S_ 1 1#1) _ _ _ (fun _ => rfl)]
  show IntOp.andi (IntOp.cmpi .sge (srcCol ei (ix2 e (0 : Fin 1))) 0#32)
    (IntOp.cmpi .sle (srcCol ei (ix2 e (0 : Fin 1))) 99999#32) = 1#1
  rw [srcCol_read ei h]
  refine IntOp.andi_eq_one.2 ⟨IntOp.cmpi_sge.2 ?_, IntOp.cmpi_sle.2 ?_⟩
  · rw [BitVec.toInt_zero]; exact (h e).1
  · have h1 := (h e).2
    have : (99999#32 : BitVec 32).toInt = 99999 := by decide
    rw [this]; omega

/-- The taken row of an edge is its source node's row of the node features. -/
theorem taken_read (x : FVec Ideal S100000x128 .f32) (h : SrcInRange ei) (e : Fin 1600000) (k : Fin 128) :
    taken x ei (ix2 e k) = x (ix2 (srcRow ei e) k) := by
  unfold taken
  rw [select_apply, bcast_cols_apply, named_read ei h, select_one,
    Cert.TakeRows.take_rows_apply (R := 100000) (C := 128) (M := 1600000) _ rfl rfl rfl rfl rfl (by decide)]
  simp only [srcCol_read ei h]
  rfl

/-- The all-zero node array reads zero. -/
theorem zeros_read (i : S100000x128.Idx) : zeros i = 0 := by
  unfold zeros
  rw [bcast_scalar_apply]
  exact Ideal.ofBits_zero_f32

/-- The edges whose target column entry is node `n` are the edges into `n`. -/
theorem filter_dstCol (n : Fin 100000) :
    (Finset.univ.filter fun p : Fin 1600000 => (dstCol ei (ix2 p (0 : Fin 1))).toInt = (n.val : Int)) = edgesInto ei n := by
  unfold edgesInto
  exact Finset.filter_congr fun p _ => by rw [dstCol_read]

/-- The source rows added up by target, at (n, k). -/
theorem sumSrc_read (x : FVec Ideal S100000x128 .f32) (h : SrcInRange ei) (n : Fin 100000) (k : Fin 128) :
    sumSrc x ei (ix2 n k) = 0 + ∑ e ∈ edgesInto ei n, x (ix2 (srcRow ei e) k) := by
  unfold sumSrc
  rw [Cert.ScatterRows.scatter_rows_apply (R := 100000) (C := 128) (M := 1600000) _ rfl rfl rfl rfl, zeros_read,
    filter_dstCol]
  exact congrArg (fun t => (0 : EReal) + t) (Finset.sum_congr rfl fun p _ => taken_read ei x h p k)

/-- The edge features added up by target, at (n, k). -/
theorem sumEdge_read (ea : FVec Ideal S1600000x128 .f32) (n : Fin 100000) (k : Fin 128) :
    sumEdge ei ea (ix2 n k) = 0 + ∑ e ∈ edgesInto ei n, ea (ix2 e k) := by
  unfold sumEdge
  rw [Cert.ScatterRows.scatter_rows_apply (R := 100000) (C := 128) (M := 1600000) _ rfl rfl rfl rfl, zeros_read,
    filter_dstCol]

/-- The degree column, at (n, 0), is the number of edges into n. -/
theorem degCol_read (n : Fin 100000) : degCol ei (ix2 n (0 : Fin 1)) = degree ei n := by
  unfold degCol
  rw [Cert.LibColumn.shapeCast_a_a1_apply,
    Cert.ScatterVec.scatter_vec_apply (R := 100000) (M := 1600000) _ rfl rfl rfl rfl, filter_dstCol,
    bcast_scalar_apply]
  unfold degree
  have hz : constant (F := Ideal) S_ .f32 0x00000000#32 ix0 = 0 := Ideal.ofBits_zero_f32
  rw [hz]
  refine congrArg (fun t => (0 : EReal) + t) (Finset.sum_congr rfl fun p _ => ?_)
  rw [bcast_scalar_apply]
  rfl

/-- A transposed square matrix reads the matrix at the exchanged index. -/
theorem flip_read (w : FVec Ideal S128x128 .f32) (a b : Fin 128) : flip w (ix2 a b) = w (ix2 b a) := by
  unfold KerHost.flip
  exact transpose_ix2_apply w _ a b

/-- The bias row reads the bias. -/
theorem biasRow_read (b : FVec Ideal S128 .f32) (j : Fin 128) : biasRow b (ix2 (0 : Fin 1) j) = b (ix1 j) := by
  unfold biasRow
  exact shapeCast_a_1a_apply b _ (0 : Fin 1) j

end Cert.KerRead

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.KerBody.lean ====
/-
  One entry of the block the kernel's body stores.

  The body multiplies the block of node features by the (already transposed) self weights and adds the bias row,
  multiplies the two blocks of summed rows by the neighbour and the edge weights, adds those two products, divides by the
  larger of the degree column and one, adds the two parts and keeps the positive part. At the ideal values every
  product into the zero accumulator is a finite sum over the contracted coordinate, and narrowing the operands to half
  width changes nothing.
-/
import proofs.«409598_j61134564491909_3_alg».proof.Proof.Gen.KernelIdeal.Skeleton
import proofs.«409598_j61134564491909_3_alg».proof.Proof.LibDotPlain
import proofs.«409598_j61134564491909_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerBody

open Cert.KernelIdeal Cert.KernelIdeal.Gen Idealize.ShloMosaic Idealize.ShloMosaic.ValueIdx

/-- A block of 4000 rows times a square matrix, from the zero accumulator, at (p, q). -/
theorem product_apply (A : FVec Ideal S4000x128 .bf16) (B : FVec Ideal S128x128 .bf16) (p : Fin 4000) (q : Fin 128) :
    matmul dot_S4000x128_S128x128_S4000x128_1_0_0_1_n_n none A B (constant (F := Ideal) S4000x128 .f32 0x00000000#32) (ix2 p q)
      = ∑ c : Fin 128, A (ix2 p c) * B (ix2 c q) :=
  Cert.LibDotPlain.matmul_zero_apply (m := 4000) (n := 128) (k := 128)
    Cert.KernelIdeal.Facts₀.dot_S4000x128_S128x128_S4000x128_1_0_0_1_n_n_wf none A B p q

/-- The stored block at row `p`, column `q`, from the eight loaded blocks. -/
theorem pay_apply (x0 x1 x2 : Vec Ideal S4000x128 .f32) (x3 : Vec Ideal S4000x1 .f32) (x4 x5 x6 : Vec Ideal S128x128 .f32)
    (x7 : Vec Ideal S1x128 .f32) (p : Fin 4000) (q : Fin 128) :
    k0_pay1 (F := Ideal) x0 x1 x2 x4 x5 x6 x7 x3 (ix2 p q)
      = max (((∑ c : Fin 128, x0 (ix2 p c) * x4 (ix2 c q)) + x7 (ix2 (0 : Fin 1) q))
          + Ideal.div ((∑ c : Fin 128, x1 (ix2 p c) * x5 (ix2 c q)) + (∑ c : Fin 128, x2 (ix2 p c) * x6 (ix2 c q)))
              (max (x3 (ix2 p (0 : Fin 1))) (Ideal.ofBits .f32 0x3F800000#32))) (Ideal.ofBits .f32 0x00000000#32) := by
  unfold k0_pay1
  simp only [maximumf_apply, addf_apply, divf_apply, broadcast_apply, product_apply, truncf_apply,
    shapeCast_self, broadcastTo_1b_ab_apply, Cert.LibColumn.broadcastTo_a1_ab_apply]
  rfl

end Cert.KerBody

end
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

/-!
# Finite extended reals, and the algebra of a two-relation mean-aggregating graph layer

General lemmas over `EReal`.

* `IsReal x`: the extended real `x` is (the image of) a real number; closure under the ring
  operations, `max`, finite sums.
* Distributivity `x * (a + b) = x * a + x * b` holds on the finite extended reals (it fails at
  `x = ⊤, a = 1, b = -1`), hence `∑ X (A + B) = ∑ X A + ∑ X B` for finite families.
* Reassociations of the sums that make up one output entry of a layer whose node type has one,
  respectively two, incoming relations.
* Division by a nonzero real is the product with the quotient `1 / r`.
* Gathering from, and scatter-adding into, an everywhere finite array gives an everywhere finite
  array.
-/

namespace Cert.LibERealSage

open Idealize.ShloMosaic

/-! ### Finite extended reals -/

/-- An extended real is *real* (finite) when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two real extended reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real extended reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negation of a real extended real is real. -/
theorem isReal_neg {x : EReal} (hx : IsReal x) : IsReal (-x) := by
  obtain ⟨a, rfl⟩ := hx
  exact ⟨-a, (EReal.coe_neg a).symm⟩

/-- The maximum of two real extended reals is real. -/
theorem isReal_max {x y : EReal} (hx : IsReal x) (hy : IsReal y) : IsReal (max x y) := by
  rcases le_total x y with h | h
  · rw [max_eq_right h]; exact hy
  · rw [max_eq_left h]; exact hx

/-- `max x 0` is real when `x` is. -/
theorem isReal_max_zero {x : EReal} (hx : IsReal x) : IsReal (max x 0) :=
  isReal_max hx isReal_zero

/-- A finite sum of real extended reals is real. -/
theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- A sum over a whole finite type of real extended reals is real. -/
theorem isReal_sum_univ {ι : Type*} [Fintype ι] (f : ι → EReal) (h : ∀ i, IsReal (f i)) :
    IsReal (∑ i, f i) :=
  isReal_sum Finset.univ f (fun i _ => h i)

/-- An extended real is real exactly when it is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

/-! ### Distributivity on the finite extended reals -/

/-- Multiplication distributes over addition when all three extended reals are real. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

/-- A contraction against a sum of two finite families is the sum of the two contractions, when
    the contracted family is finite too. -/
theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

/-- One output entry of a layer whose node type has ONE incoming relation: the neighbour term,
    the root term and the bias, summed in two different orders. No finiteness is needed. -/
theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

/-- One output entry of a layer whose node type has TWO incoming relations: on one side the two
    neighbour terms, ONE root term against the sum of the two root matrices and the sum of the
    two biases; on the other side the two relations' (neighbour, bias, root) triples added in
    turn. Needs the root features and the two root matrices finite. -/
theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

/-- `one_rel_entry` under `max · 0`. -/
theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

/-- `two_rel_entry` under `max · 0`. -/
theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

/-! ### Division by a nonzero real -/

/-- Division by a nonzero real is the product with the quotient `1 / r`, at the infinities
    too. -/
theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

/-- The quotient `1 / r` by a nonzero real is real. -/
theorem isReal_div_one {r : ℝ} (hr : r ≠ 0) :
    IsReal (Idealize.ShloMosaic.Ideal.div 1 (r : EReal)) :=
  ⟨1 / r, by rw [Ideal.div_coe hr, one_mul]⟩

/-- The quotient of a real by a nonzero real is real. -/
theorem isReal_div {s : EReal} (hs : IsReal s) {r : ℝ} (hr : r ≠ 0) :
    IsReal (Idealize.ShloMosaic.Ideal.div s (r : EReal)) := by
  rw [Ideal.div_coe hr]
  exact isReal_mul hs (isReal_coe _)

/-- `max c 1` of a real `c` is a real number that is at least one. -/
theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

/-- `max c 1` of a real `c` is a nonzero real number. -/
theorem isReal_max_one (c : EReal) (hc : IsReal c) :
    ∃ r : ℝ, r ≠ 0 ∧ max c 1 = (r : EReal) := by
  obtain ⟨r, h1, h⟩ := isReal_max_one' c hc
  exact ⟨r, by linarith, h⟩

/-! ### Finiteness through a gather and an accumulating scatter -/

/-- Every element of a gather from an everywhere real array is real. -/
theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

/-- Every element of an accumulating scatter of everywhere real updates into an everywhere real
    array is real. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.LayerLaw.lean ====
/-
  Aggregating before or after a linear map.

  Summing the rows of a finite family and then contracting with a weight column is contracting each row and then
  summing, as long as every entry is a real number: on the extended reals the product distributes over a sum of reals,
  not over sums in general. With it the layer's two arrangements agree: the node that first sums its incoming source
  rows and its incoming edge rows and then applies the two weight matrices, and the node that sums its incoming
  messages.
-/
import proofs.«409598_j61134564491909_3_alg».proof.Proof.LibERealSage
import proofs.«409598_j61134564491909_3_alg».proof.Proof.LayerSpec

noncomputable section

open scoped BigOperators

namespace Cert.LayerLaw

open Idealize.ShloMosaic Idealize.ShloMosaic.ValueIdx Cert.LibERealSage Cert.LayerSpec

/-- A sum of rows contracted with a column is the sum of the rows' contractions, over the reals. -/
theorem sum_rows_mul {ι κ : Type*} [Fintype κ] (S : Finset ι) (A : ι → κ → EReal) (W : κ → EReal)
    (hA : ∀ e k, IsReal (A e k)) (hW : ∀ k, IsReal (W k)) :
    ∑ k, (∑ e ∈ S, A e k) * W k = ∑ e ∈ S, ∑ k, A e k * W k := by
  classical
  induction S using Finset.induction_on with
  | empty => simp
  | insert a s ha ih =>
    rw [Finset.sum_insert ha, ← ih, ← Finset.sum_add_distrib]
    refine Finset.sum_congr rfl fun k _ => ?_
    rw [Finset.sum_insert ha, mul_comm, mul_add_of_isReal (hW k) (hA a k) (isReal_sum _ _ fun e _ => hA e k),
      mul_comm (W k), mul_comm (W k)]

/-- The same, each sum started from zero. -/
theorem zero_add_sum_rows_mul {ι κ : Type*} [Fintype κ] (S : Finset ι) (A : ι → κ → EReal) (W : κ → EReal)
    (hA : ∀ e k, IsReal (A e k)) (hW : ∀ k, IsReal (W k)) :
    ∑ k, (0 + ∑ e ∈ S, A e k) * W k = ∑ e ∈ S, ∑ k, A e k * W k := by
  simp only [zero_add]
  exact sum_rows_mul S A W hA hW

/-- The layer with the sums taken first: node `n` adds up the source rows and the edge rows of its incoming edges, and
    only then applies the neighbour and the edge weights. -/
def aggAt (x : Nodes.Idx → EReal) (ei : IVec Ends 32) (ea : Edges.Idx → EReal) (ws : Sq.Idx → EReal)
    (b : Row.Idx → EReal) (wn we : Sq.Idx → EReal) (n : Fin 100000) (j : Fin 128) : EReal :=
  max (((∑ k : Fin 128, x (ix2 n k) * ws (ix2 j k)) + b (ix1 j))
      + Ideal.div ((∑ k : Fin 128, (0 + ∑ e ∈ edgesInto ei n, x (ix2 (srcRow ei e) k)) * wn (ix2 j k))
          + (∑ k : Fin 128, (0 + ∑ e ∈ edgesInto ei n, ea (ix2 e k)) * we (ix2 j k)))
        (max (degree ei n) one)) 0

/-- Summing first or last gives the same layer, when the node features, the edge features and the two weight matrices
    are real. -/
theorem aggAt_eq_outAt (x : Nodes.Idx → EReal) (ei : IVec Ends 32) (ea : Edges.Idx → EReal) (ws : Sq.Idx → EReal)
    (b : Row.Idx → EReal) (wn we : Sq.Idx → EReal) (hx : ∀ i, IsReal (x i)) (hea : ∀ i, IsReal (ea i))
    (hwn : ∀ i, IsReal (wn i)) (hwe : ∀ i, IsReal (we i)) (n : Fin 100000) (j : Fin 128) :
    aggAt x ei ea ws b wn we n j = outAt x ei ea ws b wn we n j := by
  unfold aggAt outAt message
  rw [zero_add_sum_rows_mul (edgesInto ei n) (fun e k => x (ix2 (srcRow ei e) k)) (fun k => wn (ix2 j k))
      (fun e k => hx _) (fun k => hwn _),
    zero_add_sum_rows_mul (edgesInto ei n) (fun e k => ea (ix2 e k)) (fun k => we (ix2 j k))
      (fun e k => hea _) (fun k => hwe _),
    ← Finset.sum_add_distrib, zero_add]

end Cert.LayerLaw

end
-- ==== Proof.KerValue.lean ====
/-
  The kernel's result array is the layer's output.

  The launch has 25 points; point t fetches rows 4000 t .. 4000 t + 3999 of the node features, of the two arrays of summed
  rows and of the degree column, and the three transposed weight matrices and the bias row whole; it writes back rows
  4000 t .. 4000 t + 3999 of the result. Entry (p, q) of what point t writes is the layer with the sums taken first at
  node 4000 t + p, which is the layer's output there when the inputs are real; the 25 blocks cover the result array.
-/
import proofs.«409598_j61134564491909_3_alg».proof.Proof.Gen.KernelIdeal.Value
import proofs.«409598_j61134564491909_3_alg».proof.Proof.KerHost
import proofs.«409598_j61134564491909_3_alg».proof.Proof.KerRead
import proofs.«409598_j61134564491909_3_alg».proof.Proof.KerBody
import proofs.«409598_j61134564491909_3_alg».proof.Proof.LayerLaw
import Idealize.ShloMosaic.Lib.Pipeline.Value

set_option maxRecDepth 16384

noncomputable section

open scoped BigOperators

namespace Cert.KerValue

open Cert.KernelIdeal Cert.KernelIdeal.Gen Cert.KernelIdeal.Value Cert.LayerSpec Cert.LayerLaw Cert.LibERealSage
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the four row-blocked inputs and the output move with the point, the four small
    operands stay. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

theorem point_lt (t : Fin cfg0.N) : t.val < 25 := by
  have h1 := t.isLt
  have h2 : cfg0.N = 25 := N_0
  omega

/-- The node whose row is row `p` of point `t`'s blocks. -/
def rowOf (t : Fin cfg0.N) (p : Fin 4000) : Fin 100000 := ⟨t.val * 4000 + p.val, by have := point_lt t; omega⟩

section Blocks

variable (c : Dev nD) (t : Fin cfg0.N)

theorem blk0 (p : Fin 4000) (k : Fin 128) :
    (iblk m c 0 t : Vec Ideal S4000x128 .f32) (ix2 p k) = (V m c main_arg0 : S100000x128.Idx → EReal) (ix2 (rowOf t p) k) := by
  obtain ⟨⟨e0, e1⟩, -⟩ := idx_facts t
  unfold iblk
  rw [View.read_apply]
  show V m c main_arg0 _ = V m c main_arg0 _
  congr 1
  funext a
  apply Fin.ext
  match a with
  | ⟨0, _⟩ => show win0_0.index t 0 * 4000 + 1 * p.val = t.val * 4000 + p.val; rw [e0]; omega
  | ⟨1, _⟩ => show win0_0.index t 1 * 128 + 1 * k.val = k.val; rw [e1]; omega

theorem blk1 (p : Fin 4000) (k : Fin 128) :
    (iblk m c 1 t : Vec Ideal S4000x128 .f32) (ix2 p k)
      = Cert.KerHost.sumSrc (Cert.KerHost.nodesOf m c) (Cert.KerHost.endsOf m c) (ix2 (rowOf t p) k) := by
  obtain ⟨-, ⟨e0, e1⟩, -⟩ := idx_facts t
  have hA : (V m c (Pipeline.arrRef spec0 1) : S100000x128.Idx → EReal) = Cert.KerHost.sumSrc (Cert.KerHost.nodesOf m c) (Cert.KerHost.endsOf m c) := Cert.KerHost.h_sumSrc m c
  unfold iblk
  rw [View.read_apply, hA, cast_eq]
  refine congrArg (Cert.KerHost.sumSrc (Cert.KerHost.nodesOf m c) (Cert.KerHost.endsOf m c)) ?_
  funext x
  apply Fin.ext
  match x with
  | ⟨0, _⟩ => show win0_1.index t 0 * 4000 + 1 * p.val = t.val * 4000 + p.val; rw [e0]; omega
  | ⟨1, _⟩ => show win0_1.index t 1 * 128 + 1 * k.val = k.val; rw [e1]; omega

theorem blk2 (p : Fin 4000) (k : Fin 128) :
    (iblk m c 2 t : Vec Ideal S4000x128 .f32) (ix2 p k)
      = Cert.KerHost.sumEdge (Cert.KerHost.endsOf m c) (Cert.KerHost.edgesOf m c) (ix2 (rowOf t p) k) := by
  obtain ⟨-, -, ⟨e0, e1⟩, -⟩ := idx_facts t
  have hA : (V m c (Pipeline.arrRef spec0 2) : S100000x128.Idx → EReal) = Cert.KerHost.sumEdge (Cert.KerHost.endsOf m c) (Cert.KerHost.edgesOf m c) := Cert.KerHost.h_sumEdge m c
  unfold iblk
  rw [View.read_apply, hA, cast_eq]
  refine congrArg (Cert.KerHost.sumEdge (Cert.KerHost.endsOf m c) (Cert.KerHost.edgesOf m c)) ?_
  funext x
  apply Fin.ext
  match x with
  | ⟨0, _⟩ => show win0_2.index t 0 * 4000 + 1 * p.val = t.val * 4000 + p.val; rw [e0]; omega
  | ⟨1, _⟩ => show win0_2.index t 1 * 128 + 1 * k.val = k.val; rw [e1]; omega

theorem blk3 (p : Fin 4000) :
    (iblk m c 3 t : Vec Ideal S4000x1 .f32) (ix2 p (0 : Fin 1))
      = Cert.KerHost.degCol (Cert.KerHost.endsOf m c) (ix2 (rowOf t p) (0 : Fin 1)) := by
  obtain ⟨-, -, -, ⟨e0, e1⟩, -⟩ := idx_facts t
  have hA : (V m c (Pipeline.arrRef spec0 3) : S100000x1.Idx → EReal) = Cert.KerHost.degCol (Cert.KerHost.endsOf m c) := Cert.KerHost.h_deg m c
  unfold iblk
  rw [View.read_apply, hA, cast_eq]
  refine congrArg (Cert.KerHost.degCol (Cert.KerHost.endsOf m c)) ?_
  funext x
  apply Fin.ext
  match x with
  | ⟨0, _⟩ => show win0_3.index t 0 * 4000 + 1 * p.val = t.val * 4000 + p.val; rw [e0]; omega
  | ⟨1, _⟩ => show win0_3.index t 1 * 1 + 1 * 0 = 0; rw [e1]

theorem blk4 (a b : Fin 128) :
    (iblk m c 4 t : Vec Ideal S128x128 .f32) (ix2 a b)
      = Cert.KerHost.flip (m ((c : Thread nD τ).loc main_arg3)) (ix2 a b) := by
  obtain ⟨-, -, -, -, ⟨e0, e1⟩, -⟩ := idx_facts t
  have hA : (V m c (Pipeline.arrRef spec0 4) : S128x128.Idx → EReal) = Cert.KerHost.flip (m ((c : Thread nD τ).loc main_arg3)) := Cert.KerHost.h_selfW m c
  unfold iblk
  rw [View.read_apply, hA, cast_eq]
  refine congrArg (Cert.KerHost.flip (m ((c : Thread nD τ).loc main_arg3))) ?_
  funext x
  apply Fin.ext
  match x with
  | ⟨0, _⟩ => show win0_4.index t 0 * 128 + 1 * a.val = a.val; rw [e0]; omega
  | ⟨1, _⟩ => show win0_4.index t 1 * 128 + 1 * b.val = b.val; rw [e1]; omega

theorem blk5 (a b : Fin 128) :
    (iblk m c 5 t : Vec Ideal S128x128 .f32) (ix2 a b)
      = Cert.KerHost.flip (m ((c : Thread nD τ).loc main_arg5)) (ix2 a b) := by
  obtain ⟨-, -, -, -, -, ⟨e0, e1⟩, -⟩ := idx_facts t
  have hA : (V m c (Pipeline.arrRef spec0 5) : S128x128.Idx → EReal) = Cert.KerHost.flip (m ((c : Thread nD τ).loc main_arg5)) := Cert.KerHost.h_neiW m c
  unfold iblk
  rw [View.read_apply, hA, cast_eq]
  refine congrArg (Cert.KerHost.flip (m ((c : Thread nD τ).loc main_arg5))) ?_
  funext x
  apply Fin.ext
  match x with
  | ⟨0, _⟩ => show win0_5.index t 0 * 128 + 1 * a.val = a.val; rw [e0]; omega
  | ⟨1, _⟩ => show win0_5.index t 1 * 128 + 1 * b.val = b.val; rw [e1]; omega

theorem blk6 (a b : Fin 128) :
    (iblk m c 6 t : Vec Ideal S128x128 .f32) (ix2 a b)
      = Cert.KerHost.flip (m ((c : Thread nD τ).loc main_arg6)) (ix2 a b) := by
  obtain ⟨-, -, -, -, -, -, ⟨e0, e1⟩, -⟩ := idx_facts t
  have hA : (V m c (Pipeline.arrRef spec0 6) : S128x128.Idx → EReal) = Cert.KerHost.flip (m ((c : Thread nD τ).loc main_arg6)) := Cert.KerHost.h_edgeW m c
  unfold iblk
  rw [View.read_apply, hA, cast_eq]
  refine congrArg (Cert.KerHost.flip (m ((c : Thread nD τ).loc main_arg6))) ?_
  funext x
  apply Fin.ext
  match x with
  | ⟨0, _⟩ => show win0_6.index t 0 * 128 + 1 * a.val = a.val; rw [e0]; omega
  | ⟨1, _⟩ => show win0_6.index t 1 * 128 + 1 * b.val = b.val; rw [e1]; omega

theorem blk7 (q : Fin 128) :
    (iblk m c 7 t : Vec Ideal S1x128 .f32) (ix2 (0 : Fin 1) q)
      = Cert.KerHost.biasRow (m ((c : Thread nD τ).loc main_arg4)) (ix2 (0 : Fin 1) q) := by
  obtain ⟨-, -, -, -, -, -, -, ⟨e0, e1⟩, -⟩ := idx_facts t
  have hA : (V m c (Pipeline.arrRef spec0 7) : S1x128.Idx → EReal) = Cert.KerHost.biasRow (m ((c : Thread nD τ).loc main_arg4)) := Cert.KerHost.h_bias m c
  unfold iblk
  rw [View.read_apply, hA, cast_eq]
  refine congrArg (Cert.KerHost.biasRow (m ((c : Thread nD τ).loc main_arg4))) ?_
  funext x
  apply Fin.ext
  match x with
  | ⟨0, _⟩ => show win0_7.index t 0 * 1 + 1 * 0 = 0; rw [e0]
  | ⟨1, _⟩ => show win0_7.index t 1 * 128 + 1 * q.val = q.val; rw [e1]; omega

/-- Entry (p, q) of what point `t` stores is the layer's output at node 4000 t + p, column q. -/
theorem point_eq (p : Fin 4000) (q : Fin 128) (hsrc : SrcInRange (Cert.KerHost.endsOf m c))
    (hx : ∀ i, IsReal (Cert.KerHost.nodesOf m c i)) (hea : ∀ i, IsReal (Cert.KerHost.edgesOf m c i))
    (hwn : ∀ i, IsReal ((m ((c : Thread nD τ).loc main_arg5) : S128x128.Idx → EReal) i))
    (hwe : ∀ i, IsReal ((m ((c : Thread nD τ).loc main_arg6) : S128x128.Idx → EReal) i)) :
    k0_pay1 (F := Ideal) (iblk m c 0 t) (iblk m c 1 t) (iblk m c 2 t) (iblk m c 4 t) (iblk m c 5 t) (iblk m c 6 t)
        (iblk m c 7 t) (iblk m c 3 t) (ix2 p q)
      = outAt (Cert.KerHost.nodesOf m c) (Cert.KerHost.endsOf m c) (Cert.KerHost.edgesOf m c)
          (m ((c : Thread nD τ).loc main_arg3)) (m ((c : Thread nD τ).loc main_arg4))
          (m ((c : Thread nD τ).loc main_arg5)) (m ((c : Thread nD τ).loc main_arg6)) (rowOf t p) q := by
  refine (Cert.KerBody.pay_apply (iblk m c 0 t) (iblk m c 1 t) (iblk m c 2 t) (iblk m c 3 t) (iblk m c 4 t) (iblk m c 5 t)
    (iblk m c 6 t) (iblk m c 7 t) p q).trans ?_
  rw [← aggAt_eq_outAt _ _ _ _ _ _ _ hx hea hwn hwe]
  unfold aggAt
  simp only [blk0 m c t, blk1 m c t, blk2 m c t, blk3 m c t, blk4 m c t, blk5 m c t, blk6 m c t, blk7 m c t,
    Cert.KerRead.sumSrc_read _ _ hsrc, Cert.KerRead.sumEdge_read, Cert.KerRead.degCol_read, Cert.KerRead.flip_read,
    Cert.KerRead.biasRow_read, Ideal.ofBits_zero_f32]
  rw [V_main_arg0]

/-- The output block's row `p`, column `q` at point `t` is entry (4000 t + p, q) of the result array. -/
theorem emb8 (p : Fin 4000) (q : Fin 128) : ((cfg0.win 8).blk t).view.emb (ix2 p q) = ix2 (rowOf t p) q := by
  obtain ⟨-, -, -, -, -, -, -, -, ⟨e0, e1⟩⟩ := idx_facts t
  funext x
  apply Fin.ext
  match x with
  | ⟨0, _⟩ => show win0_8.index t 0 * 4000 + 1 * p.val = t.val * 4000 + p.val; rw [e0]; omega
  | ⟨1, _⟩ => show win0_8.index t 1 * 128 + 1 * q.val = q.val; rw [e1]; omega

/-- The layer's output of the program's seven arguments. -/
abbrev result : S100000x128.Idx → EReal :=
  out (Cert.KerHost.nodesOf m c) (Cert.KerHost.endsOf m c) (Cert.KerHost.edgesOf m c)
    (m ((c : Thread nD τ).loc main_arg3)) (m ((c : Thread nD τ).loc main_arg4))
    (m ((c : Thread nD τ).loc main_arg5)) (m ((c : Thread nD τ).loc main_arg6))

/-- What point `t` stores, at any index of the block, is the result array at the block's image of that index. -/
theorem point_at (y : S4000x128.Idx) (hsrc : SrcInRange (Cert.KerHost.endsOf m c))
    (hx : ∀ i, IsReal (Cert.KerHost.nodesOf m c i)) (hea : ∀ i, IsReal (Cert.KerHost.edgesOf m c i))
    (hwn : ∀ i, IsReal ((m ((c : Thread nD τ).loc main_arg5) : S128x128.Idx → EReal) i))
    (hwe : ∀ i, IsReal ((m ((c : Thread nD τ).loc main_arg6) : S128x128.Idx → EReal) i)) :
    k0_pay1 (F := Ideal) (iblk m c 0 t) (iblk m c 1 t) (iblk m c 2 t) (iblk m c 4 t) (iblk m c 5 t) (iblk m c 6 t)
        (iblk m c 7 t) (iblk m c 3 t) y
      = result m c (((cfg0.win 8).blk t).view.emb y) := by
  obtain ⟨p, q, rfl⟩ : ∃ (p : Fin 4000) (q : Fin 128), y = ix2 p q := ⟨y 0, y 1, eq_ix2 y⟩
  rw [emb8 t p q]
  show _ = out _ _ _ _ _ _ _ (ix2 (rowOf t p) q)
  rw [out_ix2]
  exact point_eq m c t p q hsrc hx hea hwn hwe

/-- What point `t` writes back is block `t` of the result array. -/
theorem flushed_eq (hsrc : SrcInRange (Cert.KerHost.endsOf m c))
    (hx : ∀ i, IsReal (Cert.KerHost.nodesOf m c i)) (hea : ∀ i, IsReal (Cert.KerHost.edgesOf m c i))
    (hwn : ∀ i, IsReal ((m ((c : Thread nD τ).loc main_arg5) : S128x128.Idx → EReal) i))
    (hwe : ∀ i, IsReal ((m ((c : Thread nD τ).loc main_arg6) : S128x128.Idx → EReal) i)) :
    (dats m 0 c).flushed 8 t = ((cfg0.win 8).blk t).view.read (Elt Ideal) (result m c) := by
  rw [flushed8]
  unfold out0_8
  rw [View.canon_unit_zero hz]
  simp only [View.ld_unit_zero (S := S4000x128) hz, View.ld_unit_zero (S := S128x128) hz,
    View.ld_unit_zero (S := S1x128) hz, View.ld_unit_zero (S := S4000x1) hz]
  funext j
  rw [View.read_apply, cast_eq]
  exact point_at m c t j hsrc hx hea hwn hwe

end Blocks

/-- An index of the result array is in point `t`'s block iff each coordinate is in the block's range on its axis. -/
theorem mem_blk (t : Fin cfg0.N) (i : S100000x128.Idx) :
    i ∈ ((cfg0.win 8).blk t).view.set ↔ ∀ a : Fin 2, win0_8.index t a * S4000x128.size a ≤ (i a).val
      ∧ (i a).val < win0_8.index t a * S4000x128.size a + S4000x128.size a := by
  show i ∈ ((View.whole main_v20).slice (win0_8.rect t)).set ↔ _
  rw [View.set_slice_whole, Rect.mem_set_unit]
  exact Iff.rfl

/-- Every index of the result array is in the block of the point its row falls in. -/
theorem cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 25 := N_0
  refine ⟨⟨(i 0).val / 4000, by omega⟩, flush0_8 _, ?_⟩
  obtain ⟨-, -, -, -, -, -, -, -, ⟨e0, e1⟩⟩ := idx_facts ⟨(i 0).val / 4000, by omega⟩
  rw [mem_blk]
  intro a
  match a with
  | ⟨0, _⟩ =>
    show win0_8.index ⟨(i 0).val / 4000, _⟩ 0 * 4000 ≤ (i 0).val
      ∧ (i 0).val < win0_8.index ⟨(i 0).val / 4000, _⟩ 0 * 4000 + 4000
    rw [e0]
    show (i 0).val / 4000 * 4000 ≤ (i 0).val ∧ (i 0).val < (i 0).val / 4000 * 4000 + 4000
    omega
  | ⟨1, _⟩ =>
    show win0_8.index ⟨(i 0).val / 4000, _⟩ 1 * 128 ≤ (i 1).val
      ∧ (i 1).val < win0_8.index ⟨(i 0).val / 4000, _⟩ 1 * 128 + 128
    rw [e1]
    omega

/-- After the launch the result array is the layer's output. -/
theorem final (c : Dev nD) (hsrc : SrcInRange (Cert.KerHost.endsOf m c))
    (hx : ∀ i, IsReal (Cert.KerHost.nodesOf m c i)) (hea : ∀ i, IsReal (Cert.KerHost.edgesOf m c i))
    (hwn : ∀ i, IsReal ((m ((c : Thread nD τ).loc main_arg5) : S128x128.Idx → EReal) i))
    (hwe : ∀ i, IsReal ((m ((c : Thread nD τ).loc main_arg6) : S128x128.Idx → EReal) i)) :
    (dats m 0 c).arrAt 8 cfg0.N = result m c :=
  (dats m 0 c).arrAt_eq_of_cover 8 (result m c) (fun t _ => flushed_eq m c t hsrc hx hea hwn hwe) cover

end Cert.KerValue

end
-- ==== Proof.RefValue.lean ====
/-
  The reference program's result, entry by entry, is the layer's output.

  Each host operation of the reference is read at an index, outermost first: the final maximum with zero, the sum of
  the node's own term and the mean of its incoming messages, the quotient of the two scatter-adds (the summed messages
  and the count of incoming edges, the latter raised to at least one), the message of an edge as the gathered row of the
  node products plus the edge product, and the slices of the two rows of ends. Under the hypothesis that every source
  word names a node, the reference's wrap of a negative source word does nothing, and the gather's clamp is the
  specification's.
-/
import proofs.«409598_j61134564491909_3_alg».proof.Proof.Gen.ReferenceIdeal.Read
import proofs.«409598_j61134564491909_3_alg».proof.Proof.LayerSpec
import proofs.«409598_j61134564491909_3_alg».proof.Proof.LibScatterRows
import proofs.«409598_j61134564491909_3_alg».proof.Proof.LibScatterVec
import proofs.«409598_j61134564491909_3_alg».proof.Proof.LibTakeRows
import Idealize.ShloMosaic.PureOps.Ideal.Laws

noncomputable section

open scoped BigOperators

namespace Cert.RefValue

open Cert.ReferenceIdeal Cert.ReferenceIdeal.Read Cert.LayerSpec Idealize.ShloMosaic Idealize.ShloMosaic.ValueIdx

/-! ## The two rows of ends -/

/-- The first row of the ends, flattened, holds the source words. -/
theorem src_read (x1 : (⟨S2x1600000, .i32⟩ : BufTy).Contents (Elt Ideal)) (e : Fin 1600000) :
    val_main_v1 (F := Ideal) x1 (ix1 e) = srcW x1 e := by
  rw [val_main_v1_apply, val_main_v0_apply]
  unfold srcW
  congr 1
  funext a
  refine Fin.ext ?_
  match a with
  | ⟨0, _⟩ => rfl
  | ⟨1, _⟩ => exact Nat.mod_eq_of_lt e.isLt

/-- The second row of the ends, flattened, holds the target words. -/
theorem dst_read (x1 : (⟨S2x1600000, .i32⟩ : BufTy).Contents (Elt Ideal)) (e : Fin 1600000) :
    val_main_v3 (F := Ideal) x1 (ix1 e) = dstW x1 e := by
  rw [val_main_v3_apply, val_main_v2_apply]
  unfold dstW
  congr 1
  funext a
  refine Fin.ext ?_
  match a with
  | ⟨0, _⟩ => rfl
  | ⟨1, _⟩ => exact Nat.mod_eq_of_lt e.isLt

/-- A word that reads as a non-negative integer is not below zero: the comparison's bit is clear. -/
theorem slt_zero_of_nonneg (w : BitVec 32) (hw : 0 ≤ w.toInt) : IntOp.cmpi .slt w 0#32 = 0#1 := by
  have hs : w.slt 0#32 = false := by
    refine Bool.eq_false_iff.2 fun hc => ?_
    have := BitVec.slt_iff_toInt_lt.1 hc
    rw [BitVec.toInt_zero] at this
    omega
  show BitVec.ofBool (w.slt 0#32) = 0#1
  rw [hs]
  rfl

/-- With every source word naming a node, the wrap of a negative source word leaves the word as it is. -/
theorem wrap_read (x1 : (⟨S2x1600000, .i32⟩ : BufTy).Contents (Elt Ideal)) (h : SrcInRange x1) (e : Fin 1600000) :
    val_main_v10 (F := Ideal) x1 (ix1 e) = srcW x1 e := by
  rw [val_main_v10_apply, val_main_v7_apply, val_main_v6_apply, val_main_c_apply, src_read,
    slt_zero_of_nonneg _ (h e).1, select_zero]

/-- The column of start indices of the gather holds the source words. -/
theorem start_read (x1 : (⟨S2x1600000, .i32⟩ : BufTy).Contents (Elt Ideal)) (h : SrcInRange x1) (e : Fin 1600000) :
    val_main_v11 (F := Ideal) x1 (ix2 e (0 : Fin 1)) = srcW x1 e := by
  rw [val_main_v11_apply]
  have ei : idx_main_v11 (ix2 e (0 : Fin 1)) = ix1 e := by
    funext a
    refine Fin.ext ?_
    match a with
    | ⟨0, _⟩ => rfl
  rw [ei, wrap_read x1 h]

/-- The gather reads the row of the node products named by the edge's source. -/
theorem gather_read (x0 : (⟨S100000x128, .f32⟩ : BufTy).Contents (Elt Ideal))
    (x1 : (⟨S2x1600000, .i32⟩ : BufTy).Contents (Elt Ideal)) (x5 : (⟨S128x128, .f32⟩ : BufTy).Contents (Elt Ideal))
    (h : SrcInRange x1) (e : Fin 1600000) (j : Fin 128) :
    val_main_v12 (F := Ideal) x0 x1 x5 (ix2 e j) = val_main_v5 (F := Ideal) x0 x5 (ix2 (srcRow x1 e) j) := by
  unfold val_main_v12
  rw [Cert.TakeRows.take_rows_apply (R := 100000) (C := 128) (M := 1600000) _ rfl rfl rfl rfl rfl (by decide)]
  simp only [start_read x1 h]
  rfl

/-! ## The three products with a weight matrix -/

/-- The node features through the neighbour weights, at (r, j). -/
theorem nodeprod_read (x0 : (⟨S100000x128, .f32⟩ : BufTy).Contents (Elt Ideal))
    (x5 : (⟨S128x128, .f32⟩ : BufTy).Contents (Elt Ideal)) (r : Fin 100000) (j : Fin 128) :
    val_main_v5 (F := Ideal) x0 x5 (ix2 r j) = ∑ k : Fin 128, x0 (ix2 r k) * x5 (ix2 j k) := by
  rw [val_main_v5_apply]
  refine Finset.sum_congr rfl fun k _ => ?_
  have el : lidx_main_v5 (ix2 r j) k = ix2 r k :=
    funext fun a => Fin.ext (by match a with | ⟨0, _⟩ => rfl | ⟨1, _⟩ => rfl)
  have er : idx_main_v4 (ridx_main_v5 (ix2 r j) k) = ix2 j k :=
    funext fun a => Fin.ext (by match a with | ⟨0, _⟩ => rfl | ⟨1, _⟩ => rfl)
  rw [val_main_v4_apply, el, er]

/-- The edge features through the edge weights, at (e, j). -/
theorem edgeprod_read (x2 : (⟨S1600000x128, .f32⟩ : BufTy).Contents (Elt Ideal))
    (x6 : (⟨S128x128, .f32⟩ : BufTy).Contents (Elt Ideal)) (e : Fin 1600000) (j : Fin 128) :
    val_main_v14 (F := Ideal) x2 x6 (ix2 e j) = ∑ k : Fin 128, x2 (ix2 e k) * x6 (ix2 j k) := by
  rw [val_main_v14_apply]
  refine Finset.sum_congr rfl fun k _ => ?_
  have el : lidx_main_v14 (ix2 e j) k = ix2 e k :=
    funext fun a => Fin.ext (by match a with | ⟨0, _⟩ => rfl | ⟨1, _⟩ => rfl)
  have er : idx_main_v13 (ridx_main_v14 (ix2 e j) k) = ix2 j k :=
    funext fun a => Fin.ext (by match a with | ⟨0, _⟩ => rfl | ⟨1, _⟩ => rfl)
  rw [val_main_v13_apply, el, er]

/-- The node features through the self weights, at (n, j). -/
theorem selfprod_read (x0 : (⟨S100000x128, .f32⟩ : BufTy).Contents (Elt Ideal))
    (x3 : (⟨S128x128, .f32⟩ : BufTy).Contents (Elt Ideal)) (n : Fin 100000) (j : Fin 128) :
    val_main_v27 (F := Ideal) x0 x3 (ix2 n j) = ∑ k : Fin 128, x0 (ix2 n k) * x3 (ix2 j k) := by
  rw [val_main_v27_apply]
  refine Finset.sum_congr rfl fun k _ => ?_
  have el : lidx_main_v27 (ix2 n j) k = ix2 n k :=
    funext fun a => Fin.ext (by match a with | ⟨0, _⟩ => rfl | ⟨1, _⟩ => rfl)
  have er : idx_main_v26 (ridx_main_v27 (ix2 n j) k) = ix2 j k :=
    funext fun a => Fin.ext (by match a with | ⟨0, _⟩ => rfl | ⟨1, _⟩ => rfl)
  rw [val_main_v26_apply, el, er]

/-! ## The message of an edge -/

/-- The update rows of the first scatter-add are the messages. -/
theorem message_read (x0 : (⟨S100000x128, .f32⟩ : BufTy).Contents (Elt Ideal))
    (x1 : (⟨S2x1600000, .i32⟩ : BufTy).Contents (Elt Ideal)) (x2 : (⟨S1600000x128, .f32⟩ : BufTy).Contents (Elt Ideal))
    (x5 x6 : (⟨S128x128, .f32⟩ : BufTy).Contents (Elt Ideal)) (h : SrcInRange x1) (e : Fin 1600000) (j : Fin 128) :
    val_main_v15 (F := Ideal) x0 x1 x2 x5 x6 (ix2 e j) = message x0 x1 x2 x5 x6 e j := by
  rw [val_main_v15_apply, Ideal.addf_def, gather_read x0 x1 x5 h, nodeprod_read, edgeprod_read]
  rfl

/-! ## The two scatter-adds -/

/-- The column of start indices of the first scatter-add holds the target words. -/
theorem dstcol_read (x1 : (⟨S2x1600000, .i32⟩ : BufTy).Contents (Elt Ideal)) (e : Fin 1600000) :
    val_main_v17 (F := Ideal) x1 (ix2 e (0 : Fin 1)) = dstW x1 e := by
  rw [val_main_v17_apply]
  have ei : idx_main_v17 (ix2 e (0 : Fin 1)) = ix1 e := by
    funext a
    refine Fin.ext ?_
    match a with
    | ⟨0, _⟩ => rfl
  rw [ei, dst_read]

/-- The column of start indices of the second scatter-add holds the target words too. -/
theorem dstcol_read' (x1 : (⟨S2x1600000, .i32⟩ : BufTy).Contents (Elt Ideal)) (e : Fin 1600000) :
    val_main_v21 (F := Ideal) x1 (ix2 e (0 : Fin 1)) = dstW x1 e := by
  rw [val_main_v21_apply]
  have ei : idx_main_v21 (ix2 e (0 : Fin 1)) = ix1 e := by
    funext a
    refine Fin.ext ?_
    match a with
    | ⟨0, _⟩ => rfl
  rw [ei, dst_read]

/-- The first scatter-add, at (n, j): zero plus the messages of the edges into n. -/
theorem summed_read (x0 : (⟨S100000x128, .f32⟩ : BufTy).Contents (Elt Ideal))
    (x1 : (⟨S2x1600000, .i32⟩ : BufTy).Contents (Elt Ideal)) (x2 : (⟨S1600000x128, .f32⟩ : BufTy).Contents (Elt Ideal))
    (x5 x6 : (⟨S128x128, .f32⟩ : BufTy).Contents (Elt Ideal)) (h : SrcInRange x1) (n : Fin 100000) (j : Fin 128) :
    val_main_v18 (F := Ideal) x0 x1 x2 x5 x6 (ix2 n j)
      = 0 + ∑ e ∈ edgesInto x1 n, message x0 x1 x2 x5 x6 e j := by
  unfold val_main_v18
  rw [Cert.ScatterRows.scatter_rows_apply (R := 100000) (C := 128) (M := 1600000) _ rfl rfl rfl rfl,
    val_main_v16_apply, val_main_cst_apply, Ideal.ofBits_def, Ideal.ofBits_zero_f32]
  have hf : (Finset.univ.filter fun p : Fin 1600000 =>
      (val_main_v17 (F := Ideal) x1 (ix2 p (0 : Fin 1))).toInt = (n.val : Int)) = edgesInto x1 n := by
    unfold edgesInto
    exact Finset.filter_congr fun p _ => by rw [dstcol_read]
  rw [hf]
  exact congrArg (fun t => (0 : EReal) + t)
    (Finset.sum_congr rfl fun p _ => message_read x0 x1 x2 x5 x6 h p j)

/-- The second scatter-add, at n: the number of edges into n. -/
theorem degree_read (x1 : (⟨S2x1600000, .i32⟩ : BufTy).Contents (Elt Ideal)) (n : Fin 100000) :
    val_main_v22 (F := Ideal) x1 (ix1 n) = degree x1 n := by
  unfold val_main_v22
  rw [Cert.ScatterVec.scatter_vec_apply (R := 100000) (M := 1600000) _ rfl rfl rfl rfl,
    val_main_v20_apply, val_main_cst_2_apply, Ideal.ofBits_def, Ideal.ofBits_zero_f32]
  have hf : (Finset.univ.filter fun p : Fin 1600000 =>
      (val_main_v21 (F := Ideal) x1 (ix2 p (0 : Fin 1))).toInt = (n.val : Int)) = edgesInto x1 n := by
    unfold edgesInto
    exact Finset.filter_congr fun p _ => by rw [dstcol_read']
  rw [hf]
  unfold degree
  refine congrArg (fun t => (0 : EReal) + t) (Finset.sum_congr rfl fun p _ => ?_)
  rw [val_main_v19_apply, val_main_cst_1_apply, Ideal.ofBits_def]

/-! ## The bias row and the denominator, spread over the nodes -/

/-- The bias, at (n, j), is its entry j. -/
theorem bias_read (x4 : (⟨S128, .f32⟩ : BufTy).Contents (Elt Ideal)) (n : Fin 100000) (j : Fin 128) :
    val_main_v29 (F := Ideal) x4 (ix2 n j) = x4 (ix1 j) := by
  rw [val_main_v29_apply, val_main_v28_apply]
  congr 1
  funext a
  refine Fin.ext ?_
  match a with
  | ⟨0, _⟩ => rfl

/-- The denominator, at (n, j): the number of edges into n, raised to at least one. -/
theorem denom_read (x1 : (⟨S2x1600000, .i32⟩ : BufTy).Contents (Elt Ideal)) (n : Fin 100000) (j : Fin 128) :
    val_main_v31 (F := Ideal) x1 (ix2 n j) = max (degree x1 n) one := by
  rw [val_main_v31_apply, val_main_v25_apply]
  have ei : idx_main_v25 (idx_main_v31 (ix2 n j)) = ix1 n := by
    funext a
    refine Fin.ext ?_
    match a with
    | ⟨0, _⟩ => rfl
  rw [ei, val_main_v24_apply, Ideal.maximumf_def, degree_read, val_main_v23_apply, val_main_cst_3_apply,
    Ideal.ofBits_def]

/-! ## The reference's result -/

/-- The reference program's result is the layer's output, when every source word names a node. -/
theorem ref_eq_out (x0 : (⟨S100000x128, .f32⟩ : BufTy).Contents (Elt Ideal))
    (x1 : (⟨S2x1600000, .i32⟩ : BufTy).Contents (Elt Ideal)) (x2 : (⟨S1600000x128, .f32⟩ : BufTy).Contents (Elt Ideal))
    (x3 : (⟨S128x128, .f32⟩ : BufTy).Contents (Elt Ideal)) (x4 : (⟨S128, .f32⟩ : BufTy).Contents (Elt Ideal))
    (x5 x6 : (⟨S128x128, .f32⟩ : BufTy).Contents (Elt Ideal)) (h : SrcInRange x1) :
    val_main_v34 (F := Ideal) x0 x1 x2 x3 x4 x5 x6 = out x0 x1 x2 x3 x4 x5 x6 := by
  funext i
  obtain ⟨n, j, rfl⟩ : ∃ (n : Fin 100000) (j : Fin 128), i = ix2 n j := ⟨i 0, i 1, eq_ix2 i⟩
  rw [out_ix2]
  unfold outAt
  rw [val_main_v34_apply, val_main_v33_apply, val_main_v30_apply, val_main_v32_apply, Ideal.maximumf_def,
    Ideal.addf_def, Ideal.addf_def, Ideal.hostDivf_def, selfprod_read, bias_read, summed_read x0 x1 x2 x5 x6 h,
    denom_read, val_main_call0_v0_apply, val_main_call0_cst_apply, Ideal.ofBits_def, Ideal.ofBits_zero_f32]

end Cert.RefValue

end
-- ==== Proof.PreFacts.lean ====
/-
  The printed finiteness precondition, read back.

  The precondition is the conjunction of seven tests, each a reduction by "and" over a whole array: for each of the six
  float arrays, that every entry x has |x| below plus infinity, and for row 0 of the integer array, that every word w has
  0 <= w and w < 100000 as signed integers. If the conjunction is one, every float entry is a real number and every
  source word names a node.
-/
import proofs.«409598_j61134564491909_3_alg».proof.Pre_finite_inputs
import proofs.«409598_j61134564491909_3_alg».proof.Proof.LayerSpec
import proofs.«409598_j61134564491909_3_alg».proof.Proof.LibERealSage
import Idealize.ShloMosaic.Lib.ReduceAll
import Idealize.ShloMosaic.Lib.StableHlo.Predicate
import Idealize.ShloMosaic.Lib.Pipeline.Value
import Idealize.ShloMosaic.Lib.ValueIdx

noncomputable section

namespace Cert.PreFacts

open Idealize.ShloMosaic Idealize.ShloMosaic.ValueIdx
open Cert.Pre_finite_inputs Cert.LibERealSage

/-- The scalar shape has one index. -/
instance : Subsingleton S_.Idx := ⟨fun a b => funext fun d => d.elim0⟩

/-- The pattern 0x7F800000 denotes plus infinity. -/
theorem ofBits_inf : Ideal.ofBits .f32 0x7F800000#32 = (⊤ : EReal) := by
  simp [Ideal.ofBits, Ideal.ieee]

/-- An extended real whose absolute value max x (-x) is below plus infinity is a real number. -/
theorem isReal_of_abs_lt (x : EReal)
    (h : Ideal.cmp .olt (max x (-x)) (Ideal.ofBits .f32 0x7F800000#32) = 1#1) : IsReal x := by
  rw [ofBits_inf] at h
  have hlt : max x (-x) < ⊤ := by
    simpa [Ideal.cmp, StableHlo.Predicate.ofBool_eq_one_iff] using h
  rw [isReal_iff]
  constructor
  · rintro rfl
    simp at hlt
  · rintro rfl
    simp at hlt

/-- One float conjunct: if the test "|a| below plus infinity", reduced by "and" over every axis, is one, every entry of
    a is a real number. -/
theorem isReal_of_all {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi
        (cmpf .olt (Host.absf a) (broadcastInDim s ![] hb (constant (F := Ideal) S_ .f32 0x7F800000#32)))
        (constantI S_ 1 1#1) hr h0 ix0 = 1#1) :
    ∀ i, IsReal (a i) := by
  intro i
  have hi := Host.reduce_andi_all _ _ hr h0 ix0 e i
  exact isReal_of_abs_lt (a i) hi

variable [Cert.Pre_finite_inputs.Facts]

theorem facts_of_pre (a0 : FVec Ideal S100000x128 .f32) (a1 : IVec S2x1600000 32) (a2 : FVec Ideal S1600000x128 .f32)
    (a3 : FVec Ideal S128x128 .f32) (a4 : FVec Ideal S128 .f32) (a5 a6 : FVec Ideal S128x128 .f32)
    (h : Cert.Pre_finite_inputs.fn (F := Ideal) a0 a1 a2 a3 a4 a5 a6 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ Cert.LayerSpec.SrcInRange a1 := by
  have h0 := congrFun h ix0
  dsimp only [fn, fn_part1, fn_part2] at h0
  obtain ⟨h0, h38⟩ := IntOp.andi_eq_one.1 h0
  obtain ⟨h0, h27⟩ := IntOp.andi_eq_one.1 h0
  obtain ⟨h0, h22⟩ := IntOp.andi_eq_one.1 h0
  obtain ⟨h0, h17⟩ := IntOp.andi_eq_one.1 h0
  obtain ⟨h0, h12⟩ := IntOp.andi_eq_one.1 h0
  obtain ⟨h3, h7⟩ := IntOp.andi_eq_one.1 h0
  refine ⟨isReal_of_all a0 _ _ _ h3, isReal_of_all a2 _ _ _ h7, isReal_of_all a3 _ _ _ h12,
    isReal_of_all a4 _ _ _ h17, isReal_of_all a5 _ _ _ h22, isReal_of_all a6 _ _ _ h27, ?_⟩
  intro e
  -- the two comparisons at position e of row 0
  have he := Host.reduce_andi_all _ _ _ _ ix0 h38 (ix1 e)
  obtain ⟨hge, hlt⟩ := IntOp.andi_eq_one.1 he
  -- position e of the reshaped row 0 is the word at (0, e)
  have hread : shapeCast S1600000 (extractStridedSlice S1x1600000 ![0, 0] a1 Facts.slices_S2x1600000_S1x1600000_0_0)
      Facts.shapeCasts_S1x1600000_S1600000 (ix1 e) = Cert.LayerSpec.srcW a1 e := by
    refine (shapeCast_apply _ _ (ix1 e) (ix2 (0 : Fin 1) e) ?_).trans ?_
    · rw [Shape.rowMajor_val_two, Shape.rowMajor_val_one]
      show (0 : Nat) * 1600000 + e.val = e.val
      omega
    · refine extractStridedSlice_apply _ _ _ (ix2 (0 : Fin 1) e) (ix2 (0 : Fin 2) e) ?_
      intro a
      match a with
      | ⟨0, _⟩ => rfl
      | ⟨1, _⟩ => show e.val = 0 + e.val; omega
  have hge' := IntOp.cmpi_sge.1 hge
  have hlt' := IntOp.cmpi_slt.1 hlt
  rw [hread] at hge' hlt'
  refine ⟨?_, ?_⟩
  · have z : (broadcastInDim S1600000 ![] Facts.bcast_S_S1600000 (constantI S_ 32 0#32) (ix1 e)).toInt = 0 := by
      show (0#32 : BitVec 32).toInt = 0
      decide
    rw [z] at hge'
    exact hge'
  · have z : (broadcastInDim S1600000 ![] Facts.bcast_S_S1600000 (constantI S_ 32 100000#32) (ix1 e)).toInt = 100000 := by
      show (100000#32 : BitVec 32).toInt = 100000
      decide
    rw [z] at hlt'
    exact hlt'

end Cert.PreFacts

end
-- ==== Proof.lean ====
/- The proof of `Cert.Claim`: a graph layer with edge features, its messages summed by a kernel after, and by the
   reference before, the two linear maps.

   Both programs compute, at node n and column j,
     max ((sum_k x (n, k) Ws (j, k) + b j) + (sum over the edges e into n of msg (e, j)) / max (deg n) 1) 0,
   msg (e, j) = sum_k x (src e, k) Wn (j, k) + sum_k ea (e, k) We (j, k). The reference forms every edge's message and
   adds the messages up by target. The kernel's host part adds up the source rows and the edge rows by target first,
   and the launched body applies the two weight matrices to the sums. Over the extended reals the two agree when the
   node features, the edge features and the two weight matrices are real numbers, because then a product distributes
   over the sums (Proof/LayerLaw.lean); the precondition gives that, and that every source word names a node, without
   which the kernel's take fills a row where the reference's gather clamps.

   Proof/LayerSpec.lean states the layer; Proof/RefValue.lean reads the reference's run as it; Proof/KerHost.lean and
   Proof/KerRead.lean read the arrays the launch finds, Proof/KerBody.lean the stored block, Proof/KerValue.lean the
   result array; Proof/PreFacts.lean reads the precondition back. The frames are the generated ones. -/
import proofs.«409598_j61134564491909_3_alg».proof.Defs
import proofs.«409598_j61134564491909_3_alg».proof.Proof.Gen.Kernel
import proofs.«409598_j61134564491909_3_alg».proof.Proof.Gen.Kernel.Skeleton
import proofs.«409598_j61134564491909_3_alg».proof.Proof.Gen.Kernel.Launch
import proofs.«409598_j61134564491909_3_alg».proof.Proof.Gen.Kernel.Points
import proofs.«409598_j61134564491909_3_alg».proof.Proof.Gen.Kernel.Frame
import proofs.«409598_j61134564491909_3_alg».proof.Proof.Gen.KernelIdeal
import proofs.«409598_j61134564491909_3_alg».proof.Proof.Gen.KernelIdeal.Skeleton
import proofs.«409598_j61134564491909_3_alg».proof.Proof.Gen.KernelIdeal.Launch
import proofs.«409598_j61134564491909_3_alg».proof.Proof.Gen.KernelIdeal.Points
import proofs.«409598_j61134564491909_3_alg».proof.Proof.Gen.KernelIdeal.Frame
import proofs.«409598_j61134564491909_3_alg».proof.Proof.Gen.ReferenceIdeal
import proofs.«409598_j61134564491909_3_alg».proof.Proof.Gen.Pre_finite_inputs
import proofs.«409598_j61134564491909_3_alg».proof.Proof.Gen.KernelIdeal.Value
import proofs.«409598_j61134564491909_3_alg».proof.Proof.Gen.ReferenceIdeal.Run
import proofs.«409598_j61134564491909_3_alg».proof.Proof.Gen.ReferenceIdeal.Read
import proofs.«409598_j61134564491909_3_alg».proof.Proof.KerValue
import proofs.«409598_j61134564491909_3_alg».proof.Proof.RefValue
import proofs.«409598_j61134564491909_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the layer's output of the arguments in their result arrays. -/
theorem algebraic : Cert.algebraic_KernelIdeal_ReferenceIdeal := by
  intro m ρ m' ρ' hpre hagree
  refine ⟨fun c => Cert.KerValue.result m c, ?_, ?_⟩
  · refine (θ_run Cert.KernelIdeal.defs _ _).mono (fun r h c => ⟨(h c).1.trans ?_, (h c).2⟩)
      (Cert.KernelIdeal.Value.run_blocks m ρ)
    obtain ⟨hx, hea, -, -, hwn, hwe, hsrc⟩ := Cert.PreFacts.facts_of_pre _ _ _ _ _ _ _ (hpre c)
    exact Cert.KerValue.final m c hsrc hx hea hwn hwe
  · refine (θ_run Cert.ReferenceIdeal.defs _ _).mono (fun r h c => ⟨(h c).1.trans ?_, (h c).2⟩)
      (Cert.ReferenceIdeal.Value.run (F := Ideal) m' ρ')
    obtain ⟨-, -, -, -, -, -, hsrc⟩ := Cert.PreFacts.facts_of_pre _ _ _ _ _ _ _ (hpre c)
    obtain ⟨h0, h1, h2, h3, h4, h5, h6⟩ := hagree c
    rw [Cert.ReferenceIdeal.Read.val_main_v34_eq, h0, h1, h2, h3, h4, h5, h6]
    exact Cert.RefValue.ref_eq_out _ _ _ _ _ _ _ hsrc

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
